-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S2x1600000 : Shape := ⟨2, ![2, 1600000]⟩
abbrev S1600000x4 : Shape := ⟨2, ![1600000, 4]⟩
abbrev S26x128 : Shape := ⟨2, ![26, 128]⟩
abbrev S128 : Shape := ⟨1, ![128]⟩
abbrev S128x128 : Shape := ⟨2, ![128, 128]⟩
abbrev S139x128 : Shape := ⟨2, ![139, 128]⟩
abbrev S128x4 : Shape := ⟨2, ![128, 4]⟩
abbrev S4 : Shape := ⟨1, ![4]⟩
abbrev S_ : Shape := ⟨0, ![]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S1600000x4 : S_.BroadcastsInDim S1600000x4 (![] : Fin 0 → Fin S1600000x4.rank)
  reducesTo_S1600000x4_S_d0_1 : S1600000x4.ReducesTo [0, 1] S_
  bcast_S_S26x128 : S_.BroadcastsInDim S26x128 (![] : Fin 0 → Fin S26x128.rank)
  reducesTo_S26x128_S_d0_1 : S26x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S139x128 : S_.BroadcastsInDim S139x128 (![] : Fin 0 → Fin S139x128.rank)
  reducesTo_S139x128_S_d0_1 : S139x128.ReducesTo [0, 1] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part3 {F : FTy → Type} [FloatOps F] (main_arg1 : IVec S2x1600000 32) (main_arg12 : FVec F S4 .f32) (main_v48 : IVec S_ 1) (main_v49 : FVec F S128x4 .f32) (main_v50 : FVec F S128x4 .f32) : IVec S_ 1 :=
  let main_v51 : IVec S128x4 1 := cmpf .olt main_v49 main_v50
  let main_c_19 : IVec S_ 1 := constantI S_ 1 1#1
  let main_v52 : IVec S_ 1 := (fun x v => Host.reduce IntOp.andi x v reducesTo_S128x4_S_d0_1 h_S_) main_v51 main_c_19
  let main_v53 : IVec S_ 1 := andi main_v48 main_v52
  let main_v54 : FVec F S4 .f32 := Host.absf main_arg12
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  let main_c_22 : IVec S_ 32 := constantI S_ 32 0#32
  let main_v59 : IVec S2x1600000 32 := broadcastInDim S2x1600000 ![] bcast_S_S2x1600000 main_c_22
  let main_v60 : IVec S2x1600000 1 := cmpi .sge main_arg1 main_v59
  let main_c_23 : IVec S_ 32 := constantI S_ 32 100000#32
  let main_v61 : IVec S2x1600000 32 := broadcastInDim S2x1600000 ![] bcast_S_S2x1600000 main_c_23
  let main_v62 : IVec S2x1600000 1 := cmpi .slt main_arg1 main_v61
  let main_v63 : IVec S2x1600000 1 := andi main_v60 main_v62
  let main_c_24 : IVec S_ 1 := constantI S_ 1 1#1
  let main_v64 : IVec S_ 1 := (fun x v => Host.reduce IntOp.andi x v reducesTo_S2x1600000_S_d0_1 h_S_) main_v63 main_c_24
  let main_v65 : IVec S_ 1 := andi main_v58 main_v64
  main_v65

def fn_part2 {F : FTy → Type} [FloatOps F] (main_arg1 : IVec S2x1600000 32) (main_arg8 : FVec F S128 .f32) (main_arg9 : FVec F S128x128 .f32) (main_arg10 : FVec F S128 .f32) (main_arg11 : FVec F S128x4 .f32) (main_arg12 : FVec F S4 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x4 .f32 := Host.absf main_arg11
  let main_cst_18 : FVec F S_ .f32 := constant S_ .f32 0x7F800000#32
  let main_v50 : FVec F S128x4 .f32 := broadcastInDim S128x4 ![] bcast_S_S128x4 main_cst_18
  fn_part3 (F := F) main_arg1 main_arg12 main_v48 main_v49 main_v50

def fn_part1 {F : FTy → Type} [FloatOps F] (main_arg1 : IVec S2x1600000 32) (main_arg5 : FVec F S128x128 .f32) (main_arg6 : FVec F S128 .f32) (main_arg7 : FVec F S139x128 .f32) (main_arg8 : FVec F S128 .f32) (main_arg9 : FVec F S128x128 .f32) (main_arg10 : FVec F S128 .f32) (main_arg11 : FVec F S128x4 .f32) (main_arg12 : FVec F S4 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S139x128 .f32 := Host.absf main_arg7
  let main_cst_10 : FVec F S_ .f32 := constant S_ .f32 0x7F800000#32
  let main_v30 : FVec F S139x128 .f32 := broadcastInDim S139x128 ![] bcast_S_S139x128 main_cst_10
  let main_v31 : IVec S139x128 1 := cmpf .olt main_v29 main_v30
  let main_c_11 : IVec S_ 1 := constantI S_ 1 1#1
  let main_v32 : IVec S_ 1 := (fun x v => Host.reduce IntOp.andi x v reducesTo_S139x128_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S100000x11 .f32) (main_arg1 : IVec S2x1600000 32) (main_arg2 : FVec F S1600000x4 .f32) (main_arg3 : FVec F S26x128 .f32) (main_arg4 : FVec F S128 .f32) (main_arg5 : FVec F S128x128 .f32) (main_arg6 : FVec F S128 .f32) (main_arg7 : FVec F S139x128 .f32) (main_arg8 : FVec F S128 .f32) (main_arg9 : FVec F S128x128 .f32) (main_arg10 : FVec F S128 .f32) (main_arg11 : FVec F S128x4 .f32) (main_arg12 : FVec F S4 .f32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S1600000x4 .f32 := Host.absf main_arg2
  let main_cst_0 : FVec F S_ .f32 := constant S_ .f32 0x7F800000#32
  let main_v5 : FVec F S1600000x4 .f32 := broadcastInDim S1600000x4 ![] bcast_S_S1600000x4 main_cst_0
  let main_v6 : IVec S1600000x4 1 := cmpf .olt main_v4 main_v5
  let main_c_1 : IVec S_ 1 := constantI S_ 1 1#1
  let main_v7 : IVec S_ 1 := (fun x v => Host.reduce IntOp.andi x v reducesTo_S1600000x4_S_d0_1 h_S_) main_v6 main_c_1
  let main_v8 : IVec S_ 1 := andi main_v3 main_v7
  let main_v9 : FVec F S26x128 .f32 := Host.absf main_arg3
  let main_cst_2 : FVec F S_ .f32 := constant S_ .f32 0x7F800000#32
  let main_v10 : FVec F S26x128 .f32 := broadcastInDim S26x128 ![] bcast_S_S26x128 main_cst_2
  let main_v11 : IVec S26x128 1 := cmpf .olt main_v9 main_v10
  let main_c_3 : IVec S_ 1 := constantI S_ 1 1#1
  let main_v12 : IVec S_ 1 := (fun x v => Host.reduce IntOp.andi x v reducesTo_S26x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_v13 main_v16
-- ==== Kernel.lean ====
abbrev S100000x11 : Shape := ⟨2, ![100000, 11]⟩
abbrev S2x1600000 : Shape := ⟨2, ![2, 1600000]⟩
abbrev S1600000x4 : Shape := ⟨2, ![1600000, 4]⟩
abbrev S26x128 : Shape := ⟨2, ![26, 128]⟩
abbrev S128 : Shape := ⟨1, ![128]⟩
abbrev S128x128 : Shape := ⟨2, ![128, 128]⟩
abbrev S139x128 : Shape := ⟨2, ![139, 128]⟩
abbrev S128x4 : Shape := ⟨2, ![128, 4]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x11 : Shape := ⟨2, ![1600000, 11]⟩
abbrev S1x128 : Shape := ⟨2, ![1, 128]⟩
abbrev S1600000x128 : Shape := ⟨2, ![1600000, 128]⟩
abbrev S16000x11 : Shape := ⟨2, ![16000, 11]⟩
abbrev S16000x4 : Shape := ⟨2, ![16000, 4]⟩
abbrev S16000x128 : Shape := ⟨2, ![16000, 128]⟩
abbrev S16000x26 : Shape := ⟨2, ![16000, 26]⟩
abbrev S100000x128 : Shape := ⟨2, ![100000, 128]⟩
abbrev S1x4 : Shape := ⟨2, ![1, 4]⟩
abbrev S100000x4 : Shape := ⟨2, ![100000, 4]⟩
abbrev S10000x11 : Shape := ⟨2, ![10000, 11]⟩
abbrev S10000x128 : Shape := ⟨2, ![10000, 128]⟩
abbrev S10000x4 : Shape := ⟨2, ![10000, 4]⟩
abbrev S10000x139 : Shape := ⟨2, ![10000, 139]⟩

abbrev nBuf : Space → Nat
  | .hbm => 74
  | .vmem => 24
  | .smem => 0
  | _ => 0

abbrev bufTy : (tb : Table) → Fin (tcTables nBuf tb) → BufTy
  | .hbm, ⟨0, _⟩ => ⟨S100000x11, .f32⟩
  | .hbm, ⟨1, _⟩ => ⟨S2x1600000, .i32⟩
  | .hbm, ⟨2, _⟩ => ⟨S1600000x4, .f32⟩
  | .hbm, ⟨3, _⟩ => ⟨S26x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S139x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x4, .f32⟩
  | .hbm, ⟨12, _⟩ => ⟨S4, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1, .i32⟩
  | .hbm, ⟨26, _⟩ => ⟨S_, .i32⟩
  | .hbm, ⟨27, _⟩ => ⟨S1600000x1, .i32⟩
  | .hbm, ⟨28, _⟩ => ⟨S1600000x1, .i1⟩
  | .hbm, ⟨29, _⟩ => ⟨S1x1, .i32⟩
  | .hbm, ⟨30, _⟩ => ⟨S1600000x1, .i32⟩
  | .hbm, ⟨31, _⟩ => ⟨S1600000x1, .i1⟩
  | .hbm, ⟨32, _⟩ => ⟨S1600000x1, .i1⟩
  | .hbm, ⟨33, _⟩ => ⟨S_, .i1⟩
  | .hbm, ⟨34, _⟩ => ⟨S1600000, .i1⟩
  | .hbm, ⟨35, _⟩ => ⟨S1600000x11, .f32⟩
  | .hbm, ⟨36, _⟩ => ⟨S1600000x11, .i1⟩
  | .hbm, ⟨37, _⟩ => ⟨S_, .f32⟩
  | .hbm, ⟨38, _⟩ => ⟨S1600000x11, .f32⟩
  | .hbm, ⟨39, _⟩ => ⟨S1600000x11, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1, .i32⟩
  | .hbm, ⟨49, _⟩ => ⟨S_, .i32⟩
  | .hbm, ⟨50, _⟩ => ⟨S1600000x1, .i32⟩
  | .hbm, ⟨51, _⟩ => ⟨S1600000x1, .i1⟩
  | .hbm, ⟨52, _⟩ => ⟨S1x1, .i32⟩
  | .hbm, ⟨53, _⟩ => ⟨S1600000x1, .i32⟩
  | .hbm, ⟨54, _⟩ => ⟨S1600000x1, .i1⟩
  | .hbm, ⟨55, _⟩ => ⟨S1600000x1, .i1⟩
  | .hbm, ⟨56, _⟩ => ⟨S_, .i1⟩
  | .hbm, ⟨57, _⟩ => ⟨S1600000, .i1⟩
  | .hbm, ⟨58, _⟩ => ⟨S1600000x11, .f32⟩
  | .hbm, ⟨59, _⟩ => ⟨S1600000x11, .i1⟩
  | .hbm, ⟨60, _⟩ => ⟨S_, .f32⟩
  | .hbm, ⟨61, _⟩ => ⟨S1600000x11, .f32⟩
  | .hbm, ⟨62, _⟩ => ⟨S1600000x11, .f32⟩
  | .hbm, ⟨63, _⟩ => ⟨S1x128, .f32⟩
  | .hbm, ⟨64, _⟩ => ⟨S1x128, .f32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S1x128, .f32⟩
  | .hbm, ⟨71, _⟩ => ⟨S1x128, .f32⟩
  | .hbm, ⟨72, _⟩ => ⟨S1x4, .f32⟩
  | .hbm, ⟨73, _⟩ => ⟨S100000x4, .f32⟩
  | .local _ .vmem, ⟨0, _⟩ => ⟨S16000x11, .f32⟩
  | .local _ .vmem, ⟨1, _⟩ => ⟨S16000x11, .f32⟩
  | .local _ .vmem, ⟨2, _⟩ => ⟨S16000x11, .f32⟩
  | .local _ .vmem, ⟨3, _⟩ => ⟨S16000x11, .f32⟩
  | .local _ .vmem, ⟨4, _⟩ => ⟨S16000x4, .f32⟩
  | .local _ .vmem, ⟨5, _⟩ => ⟨S16000x4, .f32⟩
  | .local _ .vmem, ⟨6, _⟩ => ⟨S26x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S16000x128, .f32⟩
  | .local _ .vmem, ⟨11, _⟩ => ⟨S16000x128, .f32⟩
  | .local _ .vmem, ⟨12, _⟩ => ⟨S10000x11, .f32⟩
  | .local _ .vmem, ⟨13, _⟩ => ⟨S10000x11, .f32⟩
  | .local _ .vmem, ⟨14, _⟩ => ⟨S10000x128, .f32⟩
  | .local _ .vmem, ⟨15, _⟩ => ⟨S10000x128, .f32⟩
  | .local _ .vmem, ⟨16, _⟩ => ⟨S139x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x4, .f32⟩
  | .local _ .vmem, ⟨21, _⟩ => ⟨S1x4, .f32⟩
  | .local _ .vmem, ⟨22, _⟩ => ⟨S10000x4, .f32⟩
  | .local _ .vmem, ⟨23, _⟩ => ⟨S10000x4, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_cst : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S26x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x11 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S139x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x4 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x4 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S10000x4 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x11_0 : S1600000.BroadcastsInDim S1600000x11 (![0] : Fin 1 → Fin S1600000x11.rank)
  bcast_S_S1600000x11 : S_.BroadcastsInDim S1600000x11 (![] : Fin 0 → Fin S1600000x11.rank)
  shapeCasts_S128_S1x128 : S128.ShapeCasts S1x128
  inb_S16000x11_S16000x11_0_0 : ∀ a, (![0, 0] : Fin 2 → Nat) a + S16000x11.size a ≤ S16000x11.size a
  h_S16000x11 : 0 < S16000x11.numel
  shapeCasts_S16000x11_S16000x11 : S16000x11.ShapeCasts S16000x11
  bitsLt_bf16_f32 : FTy.bits .bf16 < FTy.bits .f32
  inb_S16000x4_S16000x4_0_0 : ∀ a, (![0, 0] : Fin 2 → Nat) a + S16000x4.size a ≤ S16000x4.size a
  h_S16000x4 : 0 < S16000x4.numel
  concatenates_S16000x11_S16000x11_S16000x4_S16000x26_d1 : Shape.Concatenates [S16000x11, S16000x11, S16000x4] S16000x26 1
  inb_S26x128_S26x128_0_0 : ∀ a, (![0, 0] : Fin 2 → Nat) a + S26x128.size a ≤ S26x128.size a
  h_S26x128 : 0 < S26x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  inb_S128x128_S128x128_0_0 : ∀ a, (![0, 0] : Fin 2 → Nat) a + S128x128.size a ≤ S128x128.size a
  h_S128x128 : 0 < S128x128.numel
  inb_S16000x128_S16000x128_0_0 : ∀ a, (![0, 0] : Fin 2 → Nat) a + S16000x128.size a ≤ S16000x128.size a
  h_S16000x128 : 0 < S16000x128.numel
  bcast_S_S100000x128 : S_.BroadcastsInDim S100000x128 (![] : Fin 0 → Fin S100000x128.rank)
  shapeCasts_S4_S1x4 : S4.ShapeCasts S1x4
  inb_S10000x11_S10000x11_0_0 : ∀ a, (![0, 0] : Fin 2 → Nat) a + S10000x11.size a ≤ S10000x11.size a
  h_S10000x11 : 0 < S10000x11.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  concatenates_S10000x11_S10000x128_S10000x139_d1 : Shape.Concatenates [S10000x11, S10000x128] S10000x139 1
  inb_S139x128_S139x128_0_0 : ∀ a, (![0, 0] : Fin 2 → Nat) a + S139x128.size a ≤ S139x128.size a
  h_S139x128 : 0 < S139x128.numel
  broadcasts_S1x128_S10000x128 : S1x128.Broadcasts S10000x128
  inb_S128x4_S128x4_0_0 : ∀ a, (![0, 0] : Fin 2 → Nat) a + S128x4.size a ≤ S128x4.size a
  h_S128x4 : 0 < S128x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S10000x4 : S1x4.Broadcasts S10000x4
  inb_S10000x4_S10000x4_0_0 : ∀ a, (![0, 0] : Fin 2 → Nat) a + S10000x4.size a ≤ S10000x4.size a
  h_S10000x4 : 0 < S10000x4.numel
  gather_S100000x11_S1600000x1_S1600000x11_1_0_n_n_0_1_111_wf : GatherDims.WF S100000x11 S1600000x1 S1600000x11 [1] [0] [] [0] [] 1 ![1, 11]
  dot_S16000x26_S26x128_S16000x128_1_0_0_1_n_n_wf : DotDims.WF S16000x26 S26x128 S16000x128 [1] [0] [0] [1] [] []
  dot_S16000x128_S128x128_S16000x128_1_0_0_1_n_n_wf : DotDims.WF S16000x128 S128x128 S16000x128 [1] [0] [0] [1] [] []
  scatter_S100000x128_S1600000x1_S1600000x128_1_0_0_1_wf : ScatterDims.WF S100000x128 S1600000x1 S1600000x128 [1] [0] [0] 1
  dot_S10000x139_S139x128_S10000x128_1_0_0_1_n_n_wf : DotDims.WF S10000x139 S139x128 S10000x128 [1] [0] [0] [1] [] []
  dot_S10000x128_S128x128_S10000x128_1_0_0_1_n_n_wf : DotDims.WF S10000x128 S128x128 S10000x128 [1] [0] [0] [1] [] []
  dot_S10000x128_S128x4_S10000x4_1_0_0_1_n_n_wf : DotDims.WF S10000x128 S128x4 S10000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x11.size a ≤ S1600000x11.size a
  hwx0_0 : ∀ i : grid0.Coords, EltTy.bits .f32 = 32 ∨ (Rect.block (s := S1600000x11) S16000x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x11.size a ≤ S1600000x11.size a
  hwx0_1 : ∀ i : grid0.Coords, EltTy.bits .f32 = 32 ∨ (Rect.block (s := S1600000x11) S16000x11.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x4.size a ≤ S1600000x4.size a
  hwx0_2 : ∀ i : grid0.Coords, EltTy.bits .f32 = 32 ∨ (Rect.block (s := S1600000x4) S16000x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S26x128.size a ≤ S26x128.size a
  hwx0_3 : ∀ i : grid0.Coords, EltTy.bits .f32 = 32 ∨ (Rect.block (s := S26x128) S26x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16000x128.size a ≤ S1600000x128.size a
  hwx0_7 : ∀ i : grid0.Coords, EltTy.bits .f32 = 32 ∨ (Rect.block (s := S1600000x128) S16000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x11.size a ≤ S100000x11.size a
  hwx1_0 : ∀ i : grid1.Coords, EltTy.bits .f32 = 32 ∨ (Rect.block (s := S100000x11) S10000x11.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S139x128.size a ≤ S139x128.size a
  hwx1_2 : ∀ i : grid1.Coords, EltTy.bits .f32 = 32 ∨ (Rect.block (s := S139x128) S139x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x4.size a ≤ S128x4.size a
  hwx1_6 : ∀ i : grid1.Coords, EltTy.bits .f32 = 32 ∨ (Rect.block (s := S128x4) S128x4.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x4.size a ≤ S1x4.size a
  hwx1_7 : ∀ i : grid1.Coords, EltTy.bits .f32 = 32 ∨ (Rect.block (s := S1x4) S1x4.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x4.size a ≤ S100000x4.size a
  hwx1_8 : ∀ i : grid1.Coords, EltTy.bits .f32 = 32 ∨ (Rect.block (s := S100000x4) S10000x4.size (cc1_transform_8 i) (hinb1_8 i)).WholeWords (EltTy.packing .f32)

variable [Facts₀]

def gather_S100000x11_S1600000x1_S1600000x11_1_0_n_n_0_1_111 : GatherDims S100000x11 S1600000x1 S1600000x11 where
  offsetDims := [1]
  collapsedSliceDims := [0]
  operandBatchingDims := []
  startIndicesBatchingDims := []
  startIndexMap := [0]
  indexVectorDim := 1
  sliceSizes := ![1, 11]
  wf := gather_S100000x11_S1600000x1_S1600000x11_1_0_n_n_0_1_111_wf
def dot_S16000x26_S26x128_S16000x128_1_0_0_1_n_n : DotDims S16000x26 S26x128 S16000x128 where
  lhsContracting := [1]
  rhsContracting := [0]
  lhsNonContracting := [0]
  rhsNonContracting := [1]
  lhsBatch := []
  rhsBatch := []
  wf := dot_S16000x26_S26x128_S16000x128_1_0_0_1_n_n_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x139_S139x128_S10000x128_1_0_0_1_n_n : DotDims S10000x139 S139x128 S10000x128 where
  lhsContracting := [1]
  rhsContracting := [0]
  lhsNonContracting := [0]
  rhsNonContracting := [1]
  lhsBatch := []
  rhsBatch := []
  wf := dot_S10000x139_S139x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x4_S10000x4_1_0_0_1_n_n : DotDims S10000x128 S128x4 S10000x4 where
  lhsContracting := [1]
  rhsContracting := [0]
  lhsNonContracting := [0]
  rhsNonContracting := [1]
  lhsBatch := []
  rhsBatch := []
  wf := dot_S10000x128_S128x4_S10000x4_1_0_0_1_n_n_wf

abbrev win0_0 : Pipeline.Window sig grid0 :=
  Pipeline.Window.ofSpec (Memref.whole main_v4) S16000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S16000x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S26x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S16000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S10000x11.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S139x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S128x4.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S1x4.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S10000x4.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x11 : Shape := ⟨2, ![100000, 11]⟩
abbrev S2x1600000 : Shape := ⟨2, ![2, 1600000]⟩
abbrev S1600000x4 : Shape := ⟨2, ![1600000, 4]⟩
abbrev S26x128 : Shape := ⟨2, ![26, 128]⟩
abbrev S128 : Shape := ⟨1, ![128]⟩
abbrev S128x128 : Shape := ⟨2, ![128, 128]⟩
abbrev S139x128 : Shape := ⟨2, ![139, 128]⟩
abbrev S128x4 : Shape := ⟨2, ![128, 4]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x11 : Shape := ⟨2, ![1600000, 11]⟩
abbrev S1600000x26 : Shape := ⟨2, ![1600000, 26]⟩
abbrev S1600000x128 : Shape := ⟨2, ![1600000, 128]⟩
abbrev S1x128 : Shape := ⟨2, ![1, 128]⟩
abbrev S100000x128 : Shape := ⟨2, ![100000, 128]⟩
abbrev S100000x139 : Shape := ⟨2, ![100000, 139]⟩
abbrev S100000x4 : Shape := ⟨2, ![100000, 4]⟩
abbrev S1x4 : Shape := ⟨2, ![1, 4]⟩

abbrev nBuf : Space → Nat
  | .hbm => 70
  | .vmem => 0
  | .smem => 0
  | _ => 0

abbrev bufTy : (tb : Table) → Fin (tcTables nBuf tb) → BufTy
  | .hbm, ⟨0, _⟩ => ⟨S100000x11, .f32⟩
  | .hbm, ⟨1, _⟩ => ⟨S2x1600000, .i32⟩
  | .hbm, ⟨2, _⟩ => ⟨S1600000x4, .f32⟩
  | .hbm, ⟨3, _⟩ => ⟨S26x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S139x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x4, .f32⟩
  | .hbm, ⟨12, _⟩ => ⟨S4, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x11, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x11, .f32⟩
  | .hbm, ⟨35, _⟩ => ⟨S1600000x26, .f32⟩
  | .hbm, ⟨36, _⟩ => ⟨S1600000x128, .f32⟩
  | .hbm, ⟨37, _⟩ => ⟨S1x128, .f32⟩
  | .hbm, ⟨38, _⟩ => ⟨S1600000x128, .f32⟩
  | .hbm, ⟨39, _⟩ => ⟨S1600000x128, .f32⟩
  | .hbm, ⟨40, _⟩ => ⟨S_, .f32⟩
  | .hbm, ⟨41, _⟩ => ⟨S1600000x128, .f32⟩
  | .hbm, ⟨42, _⟩ => ⟨S1600000x128, .f32⟩
  | .hbm, ⟨43, _⟩ => ⟨S1600000x128, .f32⟩
  | .hbm, ⟨44, _⟩ => ⟨S1x128, .f32⟩
  | .hbm, ⟨45, _⟩ => ⟨S1600000x128, .f32⟩
  | .hbm, ⟨46, _⟩ => ⟨S1600000x128, .f32⟩
  | .hbm, ⟨47, _⟩ => ⟨S_, .f32⟩
  | .hbm, ⟨48, _⟩ => ⟨S1600000x128, .f32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x139, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x4, .f32⟩
  | .hbm, ⟨67, _⟩ => ⟨S1x4, .f32⟩
  | .hbm, ⟨68, _⟩ => ⟨S100000x4, .f32⟩
  | .hbm, ⟨69, _⟩ => ⟨S100000x4, .f32⟩
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_cst : Ref sig .tc := ⟨.hbm, 40, rfl⟩
abbrev main_call0_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call1_cst : Ref sig .tc := ⟨.hbm, 47, rfl⟩
abbrev main_call1_v0 : Ref sig .tc := ⟨.hbm, 48, rfl⟩
abbrev main_v28 : Ref sig .tc := ⟨.hbm, 49, rfl⟩
abbrev main_cst : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call2_cst : Ref sig .tc := ⟨.hbm, 59, rfl⟩
abbrev main_call2_v0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x11_S1600000x11_S1600000x4_S1600000x26_d1 : Shape.Concatenates [S1600000x11, S1600000x11, S1600000x4] S1600000x26 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  concatenates_S100000x11_S100000x128_S100000x139_d1 : Shape.Concatenates [S100000x11, S100000x128] S100000x139 1
  bcast_S1x128_S100000x128_0_1 : S1x128.BroadcastsInDim S100000x128 (![0, 1] : Fin 2 → Fin S100000x128.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  gather_S100000x11_S1600000x1_S1600000x11_1_0_n_n_0_1_111_wf : GatherDims.WF S100000x11 S1600000x1 S1600000x11 [1] [0] [] [0] [] 1 ![1, 11]
  dot_S1600000x26_S26x128_S1600000x128_1_0_0_1_n_n_wf : DotDims.WF S1600000x26 S26x128 S1600000x128 [1] [0] [0] [1] [] []
  dot_S1600000x128_S128x128_S1600000x128_1_0_0_1_n_n_wf : DotDims.WF S1600000x128 S128x128 S1600000x128 [1] [0] [0] [1] [] []
  scatter_S100000x128_S1600000x1_S1600000x128_1_0_0_1_wf : ScatterDims.WF S100000x128 S1600000x1 S1600000x128 [1] [0] [0] 1
  dot_S100000x139_S139x128_S100000x128_1_0_0_1_n_n_wf : DotDims.WF S100000x139 S139x128 S100000x128 [1] [0] [0] [1] [] []
  dot_S100000x128_S128x128_S100000x128_1_0_0_1_n_n_wf : DotDims.WF S100000x128 S128x128 S100000x128 [1] [0] [0] [1] [] []
  dot_S100000x128_S128x4_S100000x4_1_0_0_1_n_n_wf : DotDims.WF S100000x128 S128x4 S100000x4 [1] [0] [0] [1] [] []

variable [Facts₀]

def gather_S100000x11_S1600000x1_S1600000x11_1_0_n_n_0_1_111 : GatherDims S100000x11 S1600000x1 S1600000x11 where
  offsetDims := [1]
  collapsedSliceDims := [0]
  operandBatchingDims := []
  startIndicesBatchingDims := []
  startIndexMap := [0]
  indexVectorDim := 1
  sliceSizes := ![1, 11]
  wf := gather_S100000x11_S1600000x1_S1600000x11_1_0_n_n_0_1_111_wf
def dot_S1600000x26_S26x128_S1600000x128_1_0_0_1_n_n : DotDims S1600000x26 S26x128 S1600000x128 where
  lhsContracting := [1]
  rhsContracting := [0]
  lhsNonContracting := [0]
  rhsNonContracting := [1]
  lhsBatch := []
  rhsBatch := []
  wf := dot_S1600000x26_S26x128_S1600000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x139_S139x128_S100000x128_1_0_0_1_n_n : DotDims S100000x139 S139x128 S100000x128 where
  lhsContracting := [1]
  rhsContracting := [0]
  lhsNonContracting := [0]
  rhsNonContracting := [1]
  lhsBatch := []
  rhsBatch := []
  wf := dot_S100000x139_S139x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x4_S100000x4_1_0_0_1_n_n : DotDims S100000x128 S128x4 S100000x4 where
  lhsContracting := [1]
  rhsContracting := [0]
  lhsNonContracting := [0]
  rhsNonContracting := [1]
  lhsBatch := []
  rhsBatch := []
  wf := dot_S100000x128_S128x4_S100000x4_1_0_0_1_n_n_wf

class Facts : Prop extends Facts₀ where

variable [Facts]
-- ==== Proof.Spec.lean ====
/-
  The mathematics both programs compute, row by row, on the extended reals.

  An edge's features are two affine layers with a rectified linear unit after each,
  applied to the concatenation of the source node's row, the destination node's row and the
  edge's attributes; a node's embedding is three affine layers (a rectified linear unit after
  the first only) applied to the concatenation of the node's row and the row of summed edge
  features.  Every layer is `x ↦ (∑ₖ xₖ · W k q) + b q`, the sum taken over the whole
  contracted axis at once; no law of arithmetic beyond reading each operation at an index is
  needed to see that the tiled kernel and the whole-array reference compute these functions.
-/
import Idealize.ShloMosaic.PureOps.Ideal
import Idealize.ShloMosaic.Lib.ValueIdx

noncomputable section

open scoped BigOperators

namespace Cert.Spec

open Idealize.ShloMosaic Idealize.ShloMosaic.ValueIdx

/-- Row `r` of a matrix. -/
def row {R C : Nat} (A : (⟨2, ![R, C]⟩ : Shape).Idx → EReal) (r : Fin R) : Fin C → EReal := fun j => A (ix2 r j)

/-- A vector as a function of its one coordinate. -/
def vec {N : Nat} (b : (⟨1, ![N]⟩ : Shape).Idx → EReal) : Fin N → EReal := fun q => b (ix1 q)

/-- One row through an affine layer: `(∑ₖ xₖ · W k q) + b q`. -/
def dense {K N : Nat} (x : Fin K → EReal) (W : (⟨2, ![K, N]⟩ : Shape).Idx → EReal) (b : Fin N → EReal) : Fin N → EReal :=
  fun q => (∑ k : Fin K, x k * W (ix2 k q)) + b q

/-- The rectified linear unit on a row. -/
def relu {N : Nat} (v : Fin N → EReal) : Fin N → EReal := fun q => max (v q) 0

/-- Source row, destination row and edge attributes laid end to end. -/
def cat3 (s d : Fin 11 → EReal) (a : Fin 4 → EReal) : Fin 26 → EReal := fun k =>
  if h : k.val < 11 then s ⟨k.val, h⟩
  else if h2 : k.val < 22 then d ⟨k.val - 11, by omega⟩
  else a ⟨k.val - 22, by have := k.isLt; omega⟩

/-- A node's row and its aggregated edge features laid end to end. -/
def cat2 (n : Fin 11 → EReal) (g : Fin 128 → EReal) : Fin 139 → EReal := fun k =>
  if h : k.val < 11 then n ⟨k.val, h⟩ else g ⟨k.val - 11, by have := k.isLt; omega⟩

/-- One edge's features. -/
def edgeRow (s d : Fin 11 → EReal) (a : Fin 4 → EReal)
    (W1 : (⟨2, ![26, 128]⟩ : Shape).Idx → EReal) (b1 : Fin 128 → EReal)
    (W2 : (⟨2, ![128, 128]⟩ : Shape).Idx → EReal) (b2 : Fin 128 → EReal) : Fin 128 → EReal :=
  relu (dense (relu (dense (cat3 s d a) W1 b1)) W2 b2)

/-- One node's embedding. -/
def nodeRow (n : Fin 11 → EReal) (g : Fin 128 → EReal)
    (W1 : (⟨2, ![139, 128]⟩ : Shape).Idx → EReal) (b1 : Fin 128 → EReal)
    (W2 : (⟨2, ![128, 128]⟩ : Shape).Idx → EReal) (b2 : Fin 128 → EReal)
    (W3 : (⟨2, ![128, 4]⟩ : Shape).Idx → EReal) (b3 : Fin 4 → EReal) : Fin 4 → EReal :=
  dense (dense (relu (dense (cat2 n g) W1 b1)) W2 b2) W3 b3

/-- Every edge's features: row `e` depends on row `e` of the three inputs only. -/
def edgeAll {R : Nat} (A B : (⟨2, ![R, 11]⟩ : Shape).Idx → EReal) (C : (⟨2, ![R, 4]⟩ : Shape).Idx → EReal)
    (W1 : (⟨2, ![26, 128]⟩ : Shape).Idx → EReal) (b1 : Fin 128 → EReal)
    (W2 : (⟨2, ![128, 128]⟩ : Shape).Idx → EReal) (b2 : Fin 128 → EReal) :
    (⟨2, ![R, 128]⟩ : Shape).Idx → EReal :=
  fun i => edgeRow (row A (i 0)) (row B (i 0)) (row C (i 0)) W1 b1 W2 b2 (i 1)

/-- Every node's embedding: row `n` depends on row `n` of the two inputs only. -/
def nodeAll {R : Nat} (A : (⟨2, ![R, 11]⟩ : Shape).Idx → EReal) (G : (⟨2, ![R, 128]⟩ : Shape).Idx → EReal)
    (W1 : (⟨2, ![139, 128]⟩ : Shape).Idx → EReal) (b1 : Fin 128 → EReal)
    (W2 : (⟨2, ![128, 128]⟩ : Shape).Idx → EReal) (b2 : Fin 128 → EReal)
    (W3 : (⟨2, ![128, 4]⟩ : Shape).Idx → EReal) (b3 : Fin 4 → EReal) :
    (⟨2, ![R, 4]⟩ : Shape).Idx → EReal :=
  fun i => nodeRow (row A (i 0)) (row G (i 0)) W1 b1 W2 b2 W3 b3 (i 1)

theorem edgeAll_apply {R : Nat} (A B : (⟨2, ![R, 11]⟩ : Shape).Idx → EReal) (C : (⟨2, ![R, 4]⟩ : Shape).Idx → EReal)
    (W1 : (⟨2, ![26, 128]⟩ : Shape).Idx → EReal) (b1 : Fin 128 → EReal)
    (W2 : (⟨2, ![128, 128]⟩ : Shape).Idx → EReal) (b2 : Fin 128 → EReal) (e : Fin R) (q : Fin 128) :
    edgeAll A B C W1 b1 W2 b2 (ix2 e q) = edgeRow (row A e) (row B e) (row C e) W1 b1 W2 b2 q := rfl

theorem nodeAll_apply {R : Nat} (A : (⟨2, ![R, 11]⟩ : Shape).Idx → EReal) (G : (⟨2, ![R, 128]⟩ : Shape).Idx → EReal)
    (W1 : (⟨2, ![139, 128]⟩ : Shape).Idx → EReal) (b1 : Fin 128 → EReal)
    (W2 : (⟨2, ![128, 128]⟩ : Shape).Idx → EReal) (b2 : Fin 128 → EReal)
    (W3 : (⟨2, ![128, 4]⟩ : Shape).Idx → EReal) (b3 : Fin 4 → EReal) (n : Fin R) (q : Fin 4) :
    nodeAll A G W1 b1 W2 b2 W3 b3 (ix2 n q) = nodeRow (row A n) (row G n) W1 b1 W2 b2 W3 b3 q := rfl

end Cert.Spec

end
-- ==== Proof.Take.lean ====
import proofs.«423183_j50654844289862_1_alg».proof.Proof.Gen.KernelIdeal
import proofs.«423183_j50654844289862_1_alg».proof.Proof.Gen.Pre_finite_inputs
import Idealize.ShloMosaic.Lib.ValueIdx
import Idealize.ShloMosaic.Lib.ValueLayout
import Idealize.ShloMosaic.Lib.ReduceAll
import Idealize.ShloMosaic.Lib.Pipeline.Value
import Idealize.ShloMosaic.Lib.StableHlo.Predicate

noncomputable section

namespace Cert.KernelIdeal.Take

open Idealize.ShloMosaic Idealize.ShloMosaic.ValueIdx Cert.KernelIdeal Cert.KernelIdeal.Gen

variable {F : FTy → Type} [FloatOps F]

/-- A possibly negative row number counted from the end: `i + 100000` where `i < 0`, else `i`. -/
def wrapIdx (idx : IVec S1600000 32) : IVec S1600000 32 :=
  select (cmpi .slt idx (broadcastInDim S1600000 ![] bcast_S_S1600000 (constantI S_ 32 0#32)))
    (addi idx (broadcastInDim S1600000 ![] bcast_S_S1600000 (constantI S_ 32 100000#32))) idx

/-- The wrapped row numbers as a column. -/
def startIdx (idx : IVec S1600000 32) : IVec S1600000x1 32 :=
  broadcastInDim S1600000x1 ![0] bcast_S1600000_S1600000x1_0 (wrapIdx idx)

/-- Which of the wrapped row numbers lie in `[0, 99999]`. -/
def inRange (idx : IVec S1600000 32) : IVec S1600000 1 :=
  Host.reduce IntOp.andi
    (andi (cmpi .sge (startIdx idx) (broadcastInDim S1600000x1 ![] bcast_S_S1600000x1 (constantI S_ 32 0#32)))
      (cmpi .sle (startIdx idx) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- Rows of `x` taken at the row numbers `idx`, a row whose number is out of range filled with the not-a-number word. -/
def takeVal (x : FVec F S100000x11 .f32) (idx : IVec S1600000 32) : FVec F S1600000x11 .f32 :=
  select (broadcastInDim S1600000x11 ![0] bcast_S1600000_S1600000x11_0 (inRange idx))
    (Host.gather gather_S100000x11_S1600000x1_S1600000x11_1_0_n_n_0_1_111 x (startIdx idx))
    (broadcastInDim S1600000x11 ![] bcast_S_S1600000x11 (constant (F := F) S_ .f32 0x7FC00000#32))

/-- A left fold by `and` from 1 over words that are all 1 is 1. -/
private theorem foldl_andi_one {ι : Type} (f : ι → BitVec 1) (hf : ∀ i, f i = 1#1) :
    ∀ l : List ι, l.foldl (fun r n => IntOp.andi r (f n)) 1#1 = 1#1
  | [] => rfl
  | a :: l => by
    have e : IntOp.andi 1#1 1#1 = (1#1 : BitVec 1) := by decide
    rw [List.foldl_cons, hf a, e]
    exact foldl_andi_one f hf l

/-- A row number that is not negative is not wrapped. -/
private theorem wrapIdx_of_nonneg (idx : IVec S1600000 32) (k : S1600000.Idx) (h0 : 0 ≤ (idx k).toInt) :
    wrapIdx idx k = idx k := by
  have hc : ¬ IntOp.cmpi .slt (idx k) (0#32) = 1#1 := by
    rw [IntOp.cmpi_slt]
    have e0 : (0#32 : BitVec 32).toInt = 0 := by decide
    omega
  show Scalar.select (IntOp.cmpi .slt (idx k) (0#32)) _ _ = idx k
  exact if_neg hc

/-- With every row number in `[0, 100000)` nothing is filled: the take is the plain gather at the wrapped numbers. -/
theorem takeVal_eq_gather (x : FVec F S100000x11 .f32) (idx : IVec S1600000 32)
    (h : ∀ e : Fin 1600000, 0 ≤ (idx (ix1 e)).toInt ∧ (idx (ix1 e)).toInt < 100000) :
    takeVal x idx = Host.gather gather_S100000x11_S1600000x1_S1600000x11_1_0_n_n_0_1_111 x (startIdx idx) := by
  -- every wrapped row number is the row number itself, in [0, 99999]
  have key : ∀ k : S1600000.Idx, 0 ≤ (wrapIdx idx k).toInt ∧ (wrapIdx idx k).toInt ≤ 99999 := by
    intro k
    obtain ⟨e, rfl⟩ : ∃ e, k = ix1 e := ⟨k 0, eq_ix1 k⟩
    obtain ⟨h0, h1⟩ := h e
    rw [wrapIdx_of_nonneg idx _ h0]
    exact ⟨h0, by omega⟩
  -- so both compares hold at every entry of the column
  have hM : ∀ i : S1600000x1.Idx,
      (andi (cmpi .sge (startIdx idx) (broadcastInDim S1600000x1 ![] bcast_S_S1600000x1 (constantI S_ 32 0#32)))
        (cmpi .sle (startIdx idx) (broadcastInDim S1600000x1 ![0, 1] bcast_S1x1_S1600000x1_0_1
          (broadcastInDim S1x1 ![1] bcast_S1_S1x1_1 (constantI S1 32 99999#32))))) i = 1#1 := by
    intro i
    obtain ⟨h0, h1⟩ : 0 ≤ (startIdx idx i).toInt ∧ (startIdx idx i).toInt ≤ 99999 := key _
    have e0 : (0#32 : BitVec 32).toInt = 0 := by decide
    have e1 : (99999#32 : BitVec 32).toInt = 99999 := by decide
    refine IntOp.andi_eq_one.2 ⟨IntOp.cmpi_sge.2 ?_, IntOp.cmpi_sle.2 ?_⟩
    · show (0#32 : BitVec 32).toInt ≤ _
      omega
    · show _ ≤ (99999#32 : BitVec 32).toInt
      omega
  -- and the reduction by `and` over the unit axis, from 1, is 1 at every row
  have hin : inRange idx = fun _ => 1#1 := by
    funext k
    unfold inRange
    rw [Host.reduce_eq_foldl]
    exact foldl_andi_one _ hM _
  -- so the select keeps the gathered value everywhere
  unfold takeVal
  rw [hin]
  funext j
  rw [select_apply]
  exact if_pos rfl

/-- Row `0` of the edge list, as a vector, read at an entry. -/
theorem rowIdx_apply (a1 : IVec S2x1600000 32) (e : Fin 1600000) :
    shapeCast S1600000 (extractStridedSlice S1x1600000 ![0, 0] a1 slices_S2x1600000_S1x1600000_0_0) shapeCasts_S1x1600000_S1600000 (ix1 e)
      = a1 (ix2 (0 : Fin 2) e) := by
  refine (shapeCast_apply _ shapeCasts_S1x1600000_S1600000 (ix1 e) (ix2 (0 : Fin 1) e) ?_).trans ?_
  · -- both positions are `e`: the one row has row number 0
    rw [Shape.rowMajor_val_two, Shape.rowMajor_val_one]
    show 0 * 1600000 + e.val = e.val
    omega
  · -- the slice starts at row 0, column 0
    exact extractStridedSlice_apply ![0, 0] a1 slices_S2x1600000_S1x1600000_0_0 (ix2 (0 : Fin 1) e) (ix2 (0 : Fin 2) e)
      (fun a => match a with
        | ⟨0, _⟩ => by show (0 : Nat) = 0 + 0; rfl
        | ⟨1, _⟩ => by show e.val = 0 + e.val; omega)

/-- Row `1` of the edge list, as a vector, read at an entry. -/
theorem colIdx_apply (a1 : IVec S2x1600000 32) (e : Fin 1600000) :
    shapeCast S1600000 (extractStridedSlice S1x1600000 ![1, 0] a1 slices_S2x1600000_S1x1600000_1_0) shapeCasts_S1x1600000_S1600000 (ix1 e)
      = a1 (ix2 (1 : Fin 2) e) := by
  refine (shapeCast_apply _ shapeCasts_S1x1600000_S1600000 (ix1 e) (ix2 (0 : Fin 1) e) ?_).trans ?_
  · -- both positions are `e`: the one row has row number 0
    rw [Shape.rowMajor_val_two, Shape.rowMajor_val_one]
    show 0 * 1600000 + e.val = e.val
    omega
  · -- the slice starts at row 1, column 0
    exact extractStridedSlice_apply ![1, 0] a1 slices_S2x1600000_S1x1600000_1_0 (ix2 (0 : Fin 1) e) (ix2 (1 : Fin 2) e)
      (fun a => match a with
        | ⟨0, _⟩ => by show (1 : Nat) = 1 + 0; rfl
        | ⟨1, _⟩ => by show e.val = 0 + e.val; omega)

/-- The precondition's last conjunct, element by element: every entry of the edge list is a row number in `[0, 100000)`. -/
theorem idx_range_of_pre (a0 : FVec Ideal Cert.Pre_finite_inputs.S100000x11 .f32) (a1 : IVec Cert.Pre_finite_inputs.S2x1600000 32)
    (a2 : FVec Ideal Cert.Pre_finite_inputs.S1600000x4 .f32) (a3 : FVec Ideal Cert.Pre_finite_inputs.S26x128 .f32)
    (a4 : FVec Ideal Cert.Pre_finite_inputs.S128 .f32) (a5 : FVec Ideal Cert.Pre_finite_inputs.S128x128 .f32)
    (a6 : FVec Ideal Cert.Pre_finite_inputs.S128 .f32) (a7 : FVec Ideal Cert.Pre_finite_inputs.S139x128 .f32)
    (a8 : FVec Ideal Cert.Pre_finite_inputs.S128 .f32) (a9 : FVec Ideal Cert.Pre_finite_inputs.S128x128 .f32)
    (a10 : FVec Ideal Cert.Pre_finite_inputs.S128 .f32) (a11 : FVec Ideal Cert.Pre_finite_inputs.S128x4 .f32)
    (a12 : FVec Ideal Cert.Pre_finite_inputs.S4 .f32)
    (h : Cert.Pre_finite_inputs.fn (F := Ideal) a0 a1 a2 a3 a4 a5 a6 a7 a8 a9 a10 a11 a12 = fun _ => 1#1)
    (r : Fin 2) (e : Fin 1600000) :
    0 ≤ (a1 (ix2 r e)).toInt ∧ (a1 (ix2 r e)).toInt < 100000 := by
  haveI : Subsingleton Cert.Pre_finite_inputs.S_.Idx := ⟨fun a b => funext fun d => d.elim0⟩
  -- the claim at the scalar's one index; the last `and` is "everything before" with "all entries in range"
  have h0 := congrFun h ValueIdx.ix0
  dsimp only [Cert.Pre_finite_inputs.fn, Cert.Pre_finite_inputs.fn_part1, Cert.Pre_finite_inputs.fn_part2,
    Cert.Pre_finite_inputs.fn_part3] at h0
  have h1 := (IntOp.andi_eq_one.1 h0).2
  -- a reduction by `and` over the whole array that is 1 had a 1 at the entry (r, e)
  have hall := Host.reduce_andi_all _ _ _ _ _ h1 (ix2 r e)
  obtain ⟨hge, hlt⟩ := IntOp.andi_eq_one.1 hall
  -- the two compares, read signed; the constants they compare with are 0 and 100000 at every entry
  have hge' := IntOp.cmpi_sge.1 hge
  have hlt' := IntOp.cmpi_slt.1 hlt
  have e0 : (0#32 : BitVec 32).toInt = 0 := by decide
  have e1 : (100000#32 : BitVec 32).toInt = 100000 := by decide
  exact ⟨e0 ▸ hge', e1 ▸ hlt'⟩

end Cert.KernelIdeal.Take

end
-- ==== Proof.KernelVal.lean ====
/-
  The kernel program's result as one function of its thirteen arguments: the node function of the node features and
  of the edge features summed into their source nodes' rows, the edge features the edge function of the two looked-up
  row arrays and the edge attributes.
-/
import proofs.«423183_j50654844289862_1_alg».proof.Proof.Gen.KernelIdeal
import proofs.«423183_j50654844289862_1_alg».proof.Proof.Spec
import proofs.«423183_j50654844289862_1_alg».proof.Proof.Take

noncomputable section

namespace Cert.KernelIdeal.Gen

open Idealize.ShloMosaic Idealize.ShloMosaic.ValueIdx Cert.KernelIdeal.Take Cert.Spec

variable {F : FTy → Type} [FloatOps F]

/-- The first row of the edge list as a vector: the source node of each edge. -/
def rowVec (a1 : IVec S2x1600000 32) : IVec S1600000 32 :=
  shapeCast S1600000 (extractStridedSlice S1x1600000 ![0, 0] a1 slices_S2x1600000_S1x1600000_0_0) shapeCasts_S1x1600000_S1600000

/-- The second row of the edge list as a vector: the destination node of each edge. -/
def colVec (a1 : IVec S2x1600000 32) : IVec S1600000 32 :=
  shapeCast S1600000 (extractStridedSlice S1x1600000 ![1, 0] a1 slices_S2x1600000_S1x1600000_1_0) shapeCasts_S1x1600000_S1600000

/-- The edge features summed into their source nodes' rows, from zero. -/
def aggOf (rows : IVec S1600000 32) (feats : FVec F S1600000x128 .f32) : FVec F S100000x128 .f32 :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 rows) feats

/-- A bias vector as the one-row matrix a region stages. -/
def biasRow128 (b : FVec F S128 .f32) : FVec F S1x128 .f32 := shapeCast S1x128 b shapeCasts_S128_S1x128
/-- The embedding head's bias vector as the one-row matrix the node region stages. -/
def biasRow4 (b : FVec F S4 .f32) : FVec F S1x4 .f32 := shapeCast S1x4 b shapeCasts_S4_S1x4

/-- The edge features, from the arguments. -/
def edgeVal (a0 : FVec Ideal S100000x11 .f32) (a1 : IVec S2x1600000 32) (a2 : FVec Ideal S1600000x4 .f32)
    (a3 : FVec Ideal S26x128 .f32) (a4 : FVec Ideal S128 .f32) (a5 : FVec Ideal S128x128 .f32) (a6 : FVec Ideal S128 .f32) :
    FVec Ideal S1600000x128 .f32 :=
  edgeAll (takeVal a0 (rowVec a1)) (takeVal a0 (colVec a1)) a2 a3 (row (biasRow128 a4) 0) a5 (row (biasRow128 a6) 0)

/-- The kernel program's result, from the arguments. -/
def kernelVal (a0 : FVec Ideal S100000x11 .f32) (a1 : IVec S2x1600000 32) (a2 : FVec Ideal S1600000x4 .f32)
    (a3 : FVec Ideal S26x128 .f32) (a4 : FVec Ideal S128 .f32) (a5 : FVec Ideal S128x128 .f32) (a6 : FVec Ideal S128 .f32)
    (a7 : FVec Ideal S139x128 .f32) (a8 : FVec Ideal S128 .f32) (a9 : FVec Ideal S128x128 .f32) (a10 : FVec Ideal S128 .f32)
    (a11 : FVec Ideal S128x4 .f32) (a12 : FVec Ideal S4 .f32) : FVec Ideal S100000x4 .f32 :=
  nodeAll a0 (aggOf (rowVec a1) (edgeVal a0 a1 a2 a3 a4 a5 a6)) a7 (row (biasRow128 a8) 0) a9 (row (biasRow128 a10) 0)
    a11 (row (biasRow4 a12) 0)

end Cert.KernelIdeal.Gen

end
-- ==== Proof.HostVals.lean ====
/-
  What the host operations around the two regions leave in the buffers the regions read, as values of the launch
  memory: the two row lookups, the reshaped biases, the scatter-add of the edge features, and every argument array
  a region reads unchanged.
-/
import proofs.«423183_j50654844289862_1_alg».proof.Proof.Gen.KernelIdeal.Frame
import proofs.«423183_j50654844289862_1_alg».proof.Proof.KernelVal
import Idealize.ShloMosaic.Lib.StableHlo.Run

set_option maxRecDepth 16384

noncomputable section

namespace Cert.KernelIdeal.Gen

open Idealize.ShloMosaic Idealize.ShloMosaic.TcCoe Idealize.ShloMosaic.Tactic
open Idealize.SL Idealize.SL.Sem
open Idealize.ShloMosaic.StableHlo
open Cert.KernelIdeal.Take

variable {F : FTy → Type} [FloatOps F]

/-- Writing a value into a typed reference's buffer and reading it back gives the value. -/
theorem ofBuf_toBuf {T : BufTy} (x : TRef sig T) (v : T.Contents (Elt F)) : x.ofBuf (x.toBuf v) = v := by
  obtain ⟨r, h, h1, h2⟩ := x
  subst h
  rfl

-- the whole-array reductions, gathers and scatters are compared by their arguments, never opened
attribute [local irreducible] Host.reduce Host.gather Host.scatterAdd

/-- A buffer that no operation of a stretch writes keeps its contents over the stretch. -/
local macro "keeps " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- A stretch's result at one buffer, the operations composed. -/
local macro "reads_stretch" : tactic => `(tactic|
  (after_results_simp <;> (try simp only [ofBuf_toBuf]) <;> rfl))

/-! ## Each stretch at the buffers it writes, from any contents before it -/

theorem slices_v1 (Vl : Valuation τ sig (Elt F)) :
    StableHlo.after hostOps0 Vl (Proc.devRef .tc main_v1) = rowVec (Vl (Proc.devRef .tc main_arg1)) := by
  reads_stretch

theorem slices_v3 (Vl : Valuation τ sig (Elt F)) :
    StableHlo.after hostOps0 Vl (Proc.devRef .tc main_v3) = colVec (Vl (Proc.devRef .tc main_arg1)) := by
  reads_stretch

set_option maxHeartbeats 1000000 in
theorem take0_v4 (Vl : Valuation τ sig (Elt F)) :
    StableHlo.after hostOps0_1 Vl (Proc.devRef .tc main_v4)
      = takeVal (Vl (Proc.devRef .tc main_arg0)) (Vl (Proc.devRef .tc main_v1)) := by
  reads_stretch

set_option maxHeartbeats 1000000 in
theorem take1_v5 (Vl : Valuation τ sig (Elt F)) :
    StableHlo.after hostOps0_2 Vl (Proc.devRef .tc main_v5)
      = takeVal (Vl (Proc.devRef .tc main_arg0)) (Vl (Proc.devRef .tc main_v3)) := by
  reads_stretch

theorem biases0_v6 (Vl : Valuation τ sig (Elt F)) :
    StableHlo.after hostOps0_3 Vl (Proc.devRef .tc main_v6) = biasRow128 (Vl (Proc.devRef .tc main_arg4)) := by
  reads_stretch

theorem biases0_v7 (Vl : Valuation τ sig (Elt F)) :
    StableHlo.after hostOps0_3 Vl (Proc.devRef .tc main_v7) = biasRow128 (Vl (Proc.devRef .tc main_arg6)) := by
  reads_stretch

theorem mid_v11 (Vl : Valuation τ sig (Elt F)) :
    StableHlo.after hostOps1 Vl (Proc.devRef .tc main_v11)
      = aggOf (Vl (Proc.devRef .tc main_v1)) (Vl (Proc.devRef .tc main_v8)) := by
  reads_stretch

theorem mid_v12 (Vl : Valuation τ sig (Elt F)) :
    StableHlo.after hostOps1 Vl (Proc.devRef .tc main_v12) = biasRow128 (Vl (Proc.devRef .tc main_arg8)) := by
  reads_stretch

theorem mid_v13 (Vl : Valuation τ sig (Elt F)) :
    StableHlo.after hostOps1 Vl (Proc.devRef .tc main_v13) = biasRow128 (Vl (Proc.devRef .tc main_arg10)) := by
  reads_stretch

theorem mid_v14 (Vl : Valuation τ sig (Elt F)) :
    StableHlo.after hostOps1 Vl (Proc.devRef .tc main_v14) = biasRow4 (Vl (Proc.devRef .tc main_arg12)) := by
  reads_stretch

/-! # The fold through @main at the buffers the regions read -/

variable (m : (ℓ : Loc nD τ sig) → Buf (Elt F) ℓ) (ρ : Dev nD → PrngReg)

/-! ## The argument arrays up to the first region: no host operation writes one -/

theorem W1_arg0 (c : Dev nD) : W1 m ρ c (Proc.devRef .tc main_arg0) = m ((c : Thread nD τ).loc main_arg0) :=
  (show StableHlo.after hostOps0 (W0 m ρ c) (Proc.devRef .tc main_arg0) = W0 m ρ c (Proc.devRef .tc main_arg0) by keeps hostOps0).trans rfl
theorem W2_arg0 (c : Dev nD) : W2 m ρ c (Proc.devRef .tc main_arg0) = m ((c : Thread nD τ).loc main_arg0) :=
  (show StableHlo.after hostOps0_1 (W1 m ρ c) (Proc.devRef .tc main_arg0) = W1 m ρ c (Proc.devRef .tc main_arg0) by keeps hostOps0_1).trans (W1_arg0 m ρ c)
theorem W3_arg0 (c : Dev nD) : W3 m ρ c (Proc.devRef .tc main_arg0) = m ((c : Thread nD τ).loc main_arg0) :=
  (show StableHlo.after hostOps0_2 (W2 m ρ c) (Proc.devRef .tc main_arg0) = W2 m ρ c (Proc.devRef .tc main_arg0) by keeps hostOps0_2).trans (W2_arg0 m ρ c)
theorem W4_arg0 (c : Dev nD) : W4 m ρ c (Proc.devRef .tc main_arg0) = m ((c : Thread nD τ).loc main_arg0) :=
  (show StableHlo.after hostOps0_3 (W3 m ρ c) (Proc.devRef .tc main_arg0) = W3 m ρ c (Proc.devRef .tc main_arg0) by keeps hostOps0_3).trans (W3_arg0 m ρ c)
theorem W1_arg2 (c : Dev nD) : W1 m ρ c (Proc.devRef .tc main_arg2) = m ((c : Thread nD τ).loc main_arg2) :=
  (show StableHlo.after hostOps0 (W0 m ρ c) (Proc.devRef .tc main_arg2) = W0 m ρ c (Proc.devRef .tc main_arg2) by keeps hostOps0).trans rfl
theorem W2_arg2 (c : Dev nD) : W2 m ρ c (Proc.devRef .tc main_arg2) = m ((c : Thread nD τ).loc main_arg2) :=
  (show StableHlo.after hostOps0_1 (W1 m ρ c) (Proc.devRef .tc main_arg2) = W1 m ρ c (Proc.devRef .tc main_arg2) by keeps hostOps0_1).trans (W1_arg2 m ρ c)
theorem W3_arg2 (c : Dev nD) : W3 m ρ c (Proc.devRef .tc main_arg2) = m ((c : Thread nD τ).loc main_arg2) :=
  (show StableHlo.after hostOps0_2 (W2 m ρ c) (Proc.devRef .tc main_arg2) = W2 m ρ c (Proc.devRef .tc main_arg2) by keeps hostOps0_2).trans (W2_arg2 m ρ c)
theorem W4_arg2 (c : Dev nD) : W4 m ρ c (Proc.devRef .tc main_arg2) = m ((c : Thread nD τ).loc main_arg2) :=
  (show StableHlo.after hostOps0_3 (W3 m ρ c) (Proc.devRef .tc main_arg2) = W3 m ρ c (Proc.devRef .tc main_arg2) by keeps hostOps0_3).trans (W3_arg2 m ρ c)
theorem W1_arg3 (c : Dev nD) : W1 m ρ c (Proc.devRef .tc main_arg3) = m ((c : Thread nD τ).loc main_arg3) :=
  (show StableHlo.after hostOps0 (W0 m ρ c) (Proc.devRef .tc main_arg3) = W0 m ρ c (Proc.devRef .tc main_arg3) by keeps hostOps0).trans rfl
theorem W2_arg3 (c : Dev nD) : W2 m ρ c (Proc.devRef .tc main_arg3) = m ((c : Thread nD τ).loc main_arg3) :=
  (show StableHlo.after hostOps0_1 (W1 m ρ c) (Proc.devRef .tc main_arg3) = W1 m ρ c (Proc.devRef .tc main_arg3) by keeps hostOps0_1).trans (W1_arg3 m ρ c)
theorem W3_arg3 (c : Dev nD) : W3 m ρ c (Proc.devRef .tc main_arg3) = m ((c : Thread nD τ).loc main_arg3) :=
  (show StableHlo.after hostOps0_2 (W2 m ρ c) (Proc.devRef .tc main_arg3) = W2 m ρ c (Proc.devRef .tc main_arg3) by keeps hostOps0_2).trans (W2_arg3 m ρ c)
theorem W4_arg3 (c : Dev nD) : W4 m ρ c (Proc.devRef .tc main_arg3) = m ((c : Thread nD τ).loc main_arg3) :=
  (show StableHlo.after hostOps0_3 (W3 m ρ c) (Proc.devRef .tc main_arg3) = W3 m ρ c (Proc.devRef .tc main_arg3) by keeps hostOps0_3).trans (W3_arg3 m ρ c)
theorem W1_arg4 (c : Dev nD) : W1 m ρ c (Proc.devRef .tc main_arg4) = m ((c : Thread nD τ).loc main_arg4) :=
  (show StableHlo.after hostOps0 (W0 m ρ c) (Proc.devRef .tc main_arg4) = W0 m ρ c (Proc.devRef .tc main_arg4) by keeps hostOps0).trans rfl
theorem W2_arg4 (c : Dev nD) : W2 m ρ c (Proc.devRef .tc main_arg4) = m ((c : Thread nD τ).loc main_arg4) :=
  (show StableHlo.after hostOps0_1 (W1 m ρ c) (Proc.devRef .tc main_arg4) = W1 m ρ c (Proc.devRef .tc main_arg4) by keeps hostOps0_1).trans (W1_arg4 m ρ c)
theorem W3_arg4 (c : Dev nD) : W3 m ρ c (Proc.devRef .tc main_arg4) = m ((c : Thread nD τ).loc main_arg4) :=
  (show StableHlo.after hostOps0_2 (W2 m ρ c) (Proc.devRef .tc main_arg4) = W2 m ρ c (Proc.devRef .tc main_arg4) by keeps hostOps0_2).trans (W2_arg4 m ρ c)
theorem W4_arg4 (c : Dev nD) : W4 m ρ c (Proc.devRef .tc main_arg4) = m ((c : Thread nD τ).loc main_arg4) :=
  (show StableHlo.after hostOps0_3 (W3 m ρ c) (Proc.devRef .tc main_arg4) = W3 m ρ c (Proc.devRef .tc main_arg4) by keeps hostOps0_3).trans (W3_arg4 m ρ c)
theorem W1_arg5 (c : Dev nD) : W1 m ρ c (Proc.devRef .tc main_arg5) = m ((c : Thread nD τ).loc main_arg5) :=
  (show StableHlo.after hostOps0 (W0 m ρ c) (Proc.devRef .tc main_arg5) = W0 m ρ c (Proc.devRef .tc main_arg5) by keeps hostOps0).trans rfl
theorem W2_arg5 (c : Dev nD) : W2 m ρ c (Proc.devRef .tc main_arg5) = m ((c : Thread nD τ).loc main_arg5) :=
  (show StableHlo.after hostOps0_1 (W1 m ρ c) (Proc.devRef .tc main_arg5) = W1 m ρ c (Proc.devRef .tc main_arg5) by keeps hostOps0_1).trans (W1_arg5 m ρ c)
theorem W3_arg5 (c : Dev nD) : W3 m ρ c (Proc.devRef .tc main_arg5) = m ((c : Thread nD τ).loc main_arg5) :=
  (show StableHlo.after hostOps0_2 (W2 m ρ c) (Proc.devRef .tc main_arg5) = W2 m ρ c (Proc.devRef .tc main_arg5) by keeps hostOps0_2).trans (W2_arg5 m ρ c)
theorem W4_arg5 (c : Dev nD) : W4 m ρ c (Proc.devRef .tc main_arg5) = m ((c : Thread nD τ).loc main_arg5) :=
  (show StableHlo.after hostOps0_3 (W3 m ρ c) (Proc.devRef .tc main_arg5) = W3 m ρ c (Proc.devRef .tc main_arg5) by keeps hostOps0_3).trans (W3_arg5 m ρ c)
theorem W1_arg6 (c : Dev nD) : W1 m ρ c (Proc.devRef .tc main_arg6) = m ((c : Thread nD τ).loc main_arg6) :=
  (show StableHlo.after hostOps0 (W0 m ρ c) (Proc.devRef .tc main_arg6) = W0 m ρ c (Proc.devRef .tc main_arg6) by keeps hostOps0).trans rfl
theorem W2_arg6 (c : Dev nD) : W2 m ρ c (Proc.devRef .tc main_arg6) = m ((c : Thread nD τ).loc main_arg6) :=
  (show StableHlo.after hostOps0_1 (W1 m ρ c) (Proc.devRef .tc main_arg6) = W1 m ρ c (Proc.devRef .tc main_arg6) by keeps hostOps0_1).trans (W1_arg6 m ρ c)
theorem W3_arg6 (c : Dev nD) : W3 m ρ c (Proc.devRef .tc main_arg6) = m ((c : Thread nD τ).loc main_arg6) :=
  (show StableHlo.after hostOps0_2 (W2 m ρ c) (Proc.devRef .tc main_arg6) = W2 m ρ c (Proc.devRef .tc main_arg6) by keeps hostOps0_2).trans (W2_arg6 m ρ c)
theorem W4_arg6 (c : Dev nD) : W4 m ρ c (Proc.devRef .tc main_arg6) = m ((c : Thread nD τ).loc main_arg6) :=
  (show StableHlo.after hostOps0_3 (W3 m ρ c) (Proc.devRef .tc main_arg6) = W3 m ρ c (Proc.devRef .tc main_arg6) by keeps hostOps0_3).trans (W3_arg6 m ρ c)
theorem W1_arg7 (c : Dev nD) : W1 m ρ c (Proc.devRef .tc main_arg7) = m ((c : Thread nD τ).loc main_arg7) :=
  (show StableHlo.after hostOps0 (W0 m ρ c) (Proc.devRef .tc main_arg7) = W0 m ρ c (Proc.devRef .tc main_arg7) by keeps hostOps0).trans rfl
theorem W2_arg7 (c : Dev nD) : W2 m ρ c (Proc.devRef .tc main_arg7) = m ((c : Thread nD τ).loc main_arg7) :=
  (show StableHlo.after hostOps0_1 (W1 m ρ c) (Proc.devRef .tc main_arg7) = W1 m ρ c (Proc.devRef .tc main_arg7) by keeps hostOps0_1).trans (W1_arg7 m ρ c)
theorem W3_arg7 (c : Dev nD) : W3 m ρ c (Proc.devRef .tc main_arg7) = m ((c : Thread nD τ).loc main_arg7) :=
  (show StableHlo.after hostOps0_2 (W2 m ρ c) (Proc.devRef .tc main_arg7) = W2 m ρ c (Proc.devRef .tc main_arg7) by keeps hostOps0_2).trans (W2_arg7 m ρ c)
theorem W4_arg7 (c : Dev nD) : W4 m ρ c (Proc.devRef .tc main_arg7) = m ((c : Thread nD τ).loc main_arg7) :=
  (show StableHlo.after hostOps0_3 (W3 m ρ c) (Proc.devRef .tc main_arg7) = W3 m ρ c (Proc.devRef .tc main_arg7) by keeps hostOps0_3).trans (W3_arg7 m ρ c)
theorem W1_arg8 (c : Dev nD) : W1 m ρ c (Proc.devRef .tc main_arg8) = m ((c : Thread nD τ).loc main_arg8) :=
  (show StableHlo.after hostOps0 (W0 m ρ c) (Proc.devRef .tc main_arg8) = W0 m ρ c (Proc.devRef .tc main_arg8) by keeps hostOps0).trans rfl
theorem W2_arg8 (c : Dev nD) : W2 m ρ c (Proc.devRef .tc main_arg8) = m ((c : Thread nD τ).loc main_arg8) :=
  (show StableHlo.after hostOps0_1 (W1 m ρ c) (Proc.devRef .tc main_arg8) = W1 m ρ c (Proc.devRef .tc main_arg8) by keeps hostOps0_1).trans (W1_arg8 m ρ c)
theorem W3_arg8 (c : Dev nD) : W3 m ρ c (Proc.devRef .tc main_arg8) = m ((c : Thread nD τ).loc main_arg8) :=
  (show StableHlo.after hostOps0_2 (W2 m ρ c) (Proc.devRef .tc main_arg8) = W2 m ρ c (Proc.devRef .tc main_arg8) by keeps hostOps0_2).trans (W2_arg8 m ρ c)
theorem W4_arg8 (c : Dev nD) : W4 m ρ c (Proc.devRef .tc main_arg8) = m ((c : Thread nD τ).loc main_arg8) :=
  (show StableHlo.after hostOps0_3 (W3 m ρ c) (Proc.devRef .tc main_arg8) = W3 m ρ c (Proc.devRef .tc main_arg8) by keeps hostOps0_3).trans (W3_arg8 m ρ c)
theorem W1_arg9 (c : Dev nD) : W1 m ρ c (Proc.devRef .tc main_arg9) = m ((c : Thread nD τ).loc main_arg9) :=
  (show StableHlo.after hostOps0 (W0 m ρ c) (Proc.devRef .tc main_arg9) = W0 m ρ c (Proc.devRef .tc main_arg9) by keeps hostOps0).trans rfl
theorem W2_arg9 (c : Dev nD) : W2 m ρ c (Proc.devRef .tc main_arg9) = m ((c : Thread nD τ).loc main_arg9) :=
  (show StableHlo.after hostOps0_1 (W1 m ρ c) (Proc.devRef .tc main_arg9) = W1 m ρ c (Proc.devRef .tc main_arg9) by keeps hostOps0_1).trans (W1_arg9 m ρ c)
theorem W3_arg9 (c : Dev nD) : W3 m ρ c (Proc.devRef .tc main_arg9) = m ((c : Thread nD τ).loc main_arg9) :=
  (show StableHlo.after hostOps0_2 (W2 m ρ c) (Proc.devRef .tc main_arg9) = W2 m ρ c (Proc.devRef .tc main_arg9) by keeps hostOps0_2).trans (W2_arg9 m ρ c)
theorem W4_arg9 (c : Dev nD) : W4 m ρ c (Proc.devRef .tc main_arg9) = m ((c : Thread nD τ).loc main_arg9) :=
  (show StableHlo.after hostOps0_3 (W3 m ρ c) (Proc.devRef .tc main_arg9) = W3 m ρ c (Proc.devRef .tc main_arg9) by keeps hostOps0_3).trans (W3_arg9 m ρ c)
theorem W1_arg10 (c : Dev nD) : W1 m ρ c (Proc.devRef .tc main_arg10) = m ((c : Thread nD τ).loc main_arg10) :=
  (show StableHlo.after hostOps0 (W0 m ρ c) (Proc.devRef .tc main_arg10) = W0 m ρ c (Proc.devRef .tc main_arg10) by keeps hostOps0).trans rfl
theorem W2_arg10 (c : Dev nD) : W2 m ρ c (Proc.devRef .tc main_arg10) = m ((c : Thread nD τ).loc main_arg10) :=
  (show StableHlo.after hostOps0_1 (W1 m ρ c) (Proc.devRef .tc main_arg10) = W1 m ρ c (Proc.devRef .tc main_arg10) by keeps hostOps0_1).trans (W1_arg10 m ρ c)
theorem W3_arg10 (c : Dev nD) : W3 m ρ c (Proc.devRef .tc main_arg10) = m ((c : Thread nD τ).loc main_arg10) :=
  (show StableHlo.after hostOps0_2 (W2 m ρ c) (Proc.devRef .tc main_arg10) = W2 m ρ c (Proc.devRef .tc main_arg10) by keeps hostOps0_2).trans (W2_arg10 m ρ c)
theorem W4_arg10 (c : Dev nD) : W4 m ρ c (Proc.devRef .tc main_arg10) = m ((c : Thread nD τ).loc main_arg10) :=
  (show StableHlo.after hostOps0_3 (W3 m ρ c) (Proc.devRef .tc main_arg10) = W3 m ρ c (Proc.devRef .tc main_arg10) by keeps hostOps0_3).trans (W3_arg10 m ρ c)
theorem W1_arg11 (c : Dev nD) : W1 m ρ c (Proc.devRef .tc main_arg11) = m ((c : Thread nD τ).loc main_arg11) :=
  (show StableHlo.after hostOps0 (W0 m ρ c) (Proc.devRef .tc main_arg11) = W0 m ρ c (Proc.devRef .tc main_arg11) by keeps hostOps0).trans rfl
theorem W2_arg11 (c : Dev nD) : W2 m ρ c (Proc.devRef .tc main_arg11) = m ((c : Thread nD τ).loc main_arg11) :=
  (show StableHlo.after hostOps0_1 (W1 m ρ c) (Proc.devRef .tc main_arg11) = W1 m ρ c (Proc.devRef .tc main_arg11) by keeps hostOps0_1).trans (W1_arg11 m ρ c)
theorem W3_arg11 (c : Dev nD) : W3 m ρ c (Proc.devRef .tc main_arg11) = m ((c : Thread nD τ).loc main_arg11) :=
  (show StableHlo.after hostOps0_2 (W2 m ρ c) (Proc.devRef .tc main_arg11) = W2 m ρ c (Proc.devRef .tc main_arg11) by keeps hostOps0_2).trans (W2_arg11 m ρ c)
theorem W4_arg11 (c : Dev nD) : W4 m ρ c (Proc.devRef .tc main_arg11) = m ((c : Thread nD τ).loc main_arg11) :=
  (show StableHlo.after hostOps0_3 (W3 m ρ c) (Proc.devRef .tc main_arg11) = W3 m ρ c (Proc.devRef .tc main_arg11) by keeps hostOps0_3).trans (W3_arg11 m ρ c)
theorem W1_arg12 (c : Dev nD) : W1 m ρ c (Proc.devRef .tc main_arg12) = m ((c : Thread nD τ).loc main_arg12) :=
  (show StableHlo.after hostOps0 (W0 m ρ c) (Proc.devRef .tc main_arg12) = W0 m ρ c (Proc.devRef .tc main_arg12) by keeps hostOps0).trans rfl
theorem W2_arg12 (c : Dev nD) : W2 m ρ c (Proc.devRef .tc main_arg12) = m ((c : Thread nD τ).loc main_arg12) :=
  (show StableHlo.after hostOps0_1 (W1 m ρ c) (Proc.devRef .tc main_arg12) = W1 m ρ c (Proc.devRef .tc main_arg12) by keeps hostOps0_1).trans (W1_arg12 m ρ c)
theorem W3_arg12 (c : Dev nD) : W3 m ρ c (Proc.devRef .tc main_arg12) = m ((c : Thread nD τ).loc main_arg12) :=
  (show StableHlo.after hostOps0_2 (W2 m ρ c) (Proc.devRef .tc main_arg12) = W2 m ρ c (Proc.devRef .tc main_arg12) by keeps hostOps0_2).trans (W2_arg12 m ρ c)
theorem W4_arg12 (c : Dev nD) : W4 m ρ c (Proc.devRef .tc main_arg12) = m ((c : Thread nD τ).loc main_arg12) :=
  (show StableHlo.after hostOps0_3 (W3 m ρ c) (Proc.devRef .tc main_arg12) = W3 m ρ c (Proc.devRef .tc main_arg12) by keeps hostOps0_3).trans (W3_arg12 m ρ c)

/-! ## The two rows of the edge list -/

theorem W1_v1 (c : Dev nD) : W1 m ρ c (Proc.devRef .tc main_v1) = rowVec (m ((c : Thread nD τ).loc main_arg1)) :=
  slices_v1 (W0 m ρ c)
theorem W1_v3 (c : Dev nD) : W1 m ρ c (Proc.devRef .tc main_v3) = colVec (m ((c : Thread nD τ).loc main_arg1)) :=
  slices_v3 (W0 m ρ c)
theorem W2_v1 (c : Dev nD) : W2 m ρ c (Proc.devRef .tc main_v1) = rowVec (m ((c : Thread nD τ).loc main_arg1)) :=
  (show StableHlo.after hostOps0_1 (W1 m ρ c) (Proc.devRef .tc main_v1) = W1 m ρ c (Proc.devRef .tc main_v1) by keeps hostOps0_1).trans (W1_v1 m ρ c)
theorem W3_v1 (c : Dev nD) : W3 m ρ c (Proc.devRef .tc main_v1) = rowVec (m ((c : Thread nD τ).loc main_arg1)) :=
  (show StableHlo.after hostOps0_2 (W2 m ρ c) (Proc.devRef .tc main_v1) = W2 m ρ c (Proc.devRef .tc main_v1) by keeps hostOps0_2).trans (W2_v1 m ρ c)
theorem W4_v1 (c : Dev nD) : W4 m ρ c (Proc.devRef .tc main_v1) = rowVec (m ((c : Thread nD τ).loc main_arg1)) :=
  (show StableHlo.after hostOps0_3 (W3 m ρ c) (Proc.devRef .tc main_v1) = W3 m ρ c (Proc.devRef .tc main_v1) by keeps hostOps0_3).trans (W3_v1 m ρ c)
theorem W2_v3 (c : Dev nD) : W2 m ρ c (Proc.devRef .tc main_v3) = colVec (m ((c : Thread nD τ).loc main_arg1)) :=
  (show StableHlo.after hostOps0_1 (W1 m ρ c) (Proc.devRef .tc main_v3) = W1 m ρ c (Proc.devRef .tc main_v3) by keeps hostOps0_1).trans (W1_v3 m ρ c)

/-! ## The two row lookups -/

theorem W2_v4 (c : Dev nD) : W2 m ρ c (Proc.devRef .tc main_v4) = takeVal (m ((c : Thread nD τ).loc main_arg0)) (rowVec (m ((c : Thread nD τ).loc main_arg1))) := by
  rw [← W1_arg0 m ρ c, ← W1_v1 m ρ c]
  exact take0_v4 (W1 m ρ c)
theorem W3_v4 (c : Dev nD) : W3 m ρ c (Proc.devRef .tc main_v4) = takeVal (m ((c : Thread nD τ).loc main_arg0)) (rowVec (m ((c : Thread nD τ).loc main_arg1))) :=
  (show StableHlo.after hostOps0_2 (W2 m ρ c) (Proc.devRef .tc main_v4) = W2 m ρ c (Proc.devRef .tc main_v4) by keeps hostOps0_2).trans (W2_v4 m ρ c)
theorem W4_v4 (c : Dev nD) : W4 m ρ c (Proc.devRef .tc main_v4) = takeVal (m ((c : Thread nD τ).loc main_arg0)) (rowVec (m ((c : Thread nD τ).loc main_arg1))) :=
  (show StableHlo.after hostOps0_3 (W3 m ρ c) (Proc.devRef .tc main_v4) = W3 m ρ c (Proc.devRef .tc main_v4) by keeps hostOps0_3).trans (W3_v4 m ρ c)
theorem W3_v5 (c : Dev nD) : W3 m ρ c (Proc.devRef .tc main_v5) = takeVal (m ((c : Thread nD τ).loc main_arg0)) (colVec (m ((c : Thread nD τ).loc main_arg1))) := by
  rw [← W2_arg0 m ρ c, ← W2_v3 m ρ c]
  exact take1_v5 (W2 m ρ c)
theorem W4_v5 (c : Dev nD) : W4 m ρ c (Proc.devRef .tc main_v5) = takeVal (m ((c : Thread nD τ).loc main_arg0)) (colVec (m ((c : Thread nD τ).loc main_arg1))) :=
  (show StableHlo.after hostOps0_3 (W3 m ρ c) (Proc.devRef .tc main_v5) = W3 m ρ c (Proc.devRef .tc main_v5) by keeps hostOps0_3).trans (W3_v5 m ρ c)

/-! ## The bias rows of the edge region -/

theorem W4_v6 (c : Dev nD) : W4 m ρ c (Proc.devRef .tc main_v6) = biasRow128 (m ((c : Thread nD τ).loc main_arg4)) := by
  rw [← W3_arg4 m ρ c]
  exact biases0_v6 (W3 m ρ c)
theorem W4_v7 (c : Dev nD) : W4 m ρ c (Proc.devRef .tc main_v7) = biasRow128 (m ((c : Thread nD τ).loc main_arg6)) := by
  rw [← W3_arg6 m ρ c]
  exact biases0_v7 (W3 m ρ c)

/-! ## Across the edge region and the stretch after it -/

theorem W5_arg0 (c : Dev nD) : W5 m ρ c (Proc.devRef .tc main_arg0) = m ((c : Thread nD τ).loc main_arg0) :=
  (W5_of_ne m ρ c main_arg0 (by decide)).trans (W4_arg0 m ρ c)
theorem W6_arg0 (c : Dev nD) : W6 m ρ c (Proc.devRef .tc main_arg0) = m ((c : Thread nD τ).loc main_arg0) :=
  (show StableHlo.after hostOps1 (W5 m ρ c) (Proc.devRef .tc main_arg0) = W5 m ρ c (Proc.devRef .tc main_arg0) by keeps hostOps1).trans (W5_arg0 m ρ c)
theorem W5_arg7 (c : Dev nD) : W5 m ρ c (Proc.devRef .tc main_arg7) = m ((c : Thread nD τ).loc main_arg7) :=
  (W5_of_ne m ρ c main_arg7 (by decide)).trans (W4_arg7 m ρ c)
theorem W6_arg7 (c : Dev nD) : W6 m ρ c (Proc.devRef .tc main_arg7) = m ((c : Thread nD τ).loc main_arg7) :=
  (show StableHlo.after hostOps1 (W5 m ρ c) (Proc.devRef .tc main_arg7) = W5 m ρ c (Proc.devRef .tc main_arg7) by keeps hostOps1).trans (W5_arg7 m ρ c)
theorem W5_arg8 (c : Dev nD) : W5 m ρ c (Proc.devRef .tc main_arg8) = m ((c : Thread nD τ).loc main_arg8) :=
  (W5_of_ne m ρ c main_arg8 (by decide)).trans (W4_arg8 m ρ c)
theorem W5_arg9 (c : Dev nD) : W5 m ρ c (Proc.devRef .tc main_arg9) = m ((c : Thread nD τ).loc main_arg9) :=
  (W5_of_ne m ρ c main_arg9 (by decide)).trans (W4_arg9 m ρ c)
theorem W6_arg9 (c : Dev nD) : W6 m ρ c (Proc.devRef .tc main_arg9) = m ((c : Thread nD τ).loc main_arg9) :=
  (show StableHlo.after hostOps1 (W5 m ρ c) (Proc.devRef .tc main_arg9) = W5 m ρ c (Proc.devRef .tc main_arg9) by keeps hostOps1).trans (W5_arg9 m ρ c)
theorem W5_arg10 (c : Dev nD) : W5 m ρ c (Proc.devRef .tc main_arg10) = m ((c : Thread nD τ).loc main_arg10) :=
  (W5_of_ne m ρ c main_arg10 (by decide)).trans (W4_arg10 m ρ c)
theorem W5_arg11 (c : Dev nD) : W5 m ρ c (Proc.devRef .tc main_arg11) = m ((c : Thread nD τ).loc main_arg11) :=
  (W5_of_ne m ρ c main_arg11 (by decide)).trans (W4_arg11 m ρ c)
theorem W6_arg11 (c : Dev nD) : W6 m ρ c (Proc.devRef .tc main_arg11) = m ((c : Thread nD τ).loc main_arg11) :=
  (show StableHlo.after hostOps1 (W5 m ρ c) (Proc.devRef .tc main_arg11) = W5 m ρ c (Proc.devRef .tc main_arg11) by keeps hostOps1).trans (W5_arg11 m ρ c)
theorem W5_arg12 (c : Dev nD) : W5 m ρ c (Proc.devRef .tc main_arg12) = m ((c : Thread nD τ).loc main_arg12) :=
  (W5_of_ne m ρ c main_arg12 (by decide)).trans (W4_arg12 m ρ c)
theorem W5_v1 (c : Dev nD) : W5 m ρ c (Proc.devRef .tc main_v1) = rowVec (m ((c : Thread nD τ).loc main_arg1)) :=
  (W5_of_ne m ρ c main_v1 (by decide)).trans (W4_v1 m ρ c)
theorem W6_v11 (c : Dev nD) : W6 m ρ c (Proc.devRef .tc main_v11)
    = aggOf (rowVec (m ((c : Thread nD τ).loc main_arg1))) (W5 m ρ c (Proc.devRef .tc main_v8)) := by
  rw [← W5_v1 m ρ c]
  exact mid_v11 (W5 m ρ c)
theorem W6_v12 (c : Dev nD) : W6 m ρ c (Proc.devRef .tc main_v12) = biasRow128 (m ((c : Thread nD τ).loc main_arg8)) := by
  rw [← W5_arg8 m ρ c]
  exact mid_v12 (W5 m ρ c)
theorem W6_v13 (c : Dev nD) : W6 m ρ c (Proc.devRef .tc main_v13) = biasRow128 (m ((c : Thread nD τ).loc main_arg10)) := by
  rw [← W5_arg10 m ρ c]
  exact mid_v13 (W5 m ρ c)
theorem W6_v14 (c : Dev nD) : W6 m ρ c (Proc.devRef .tc main_v14) = biasRow4 (m ((c : Thread nD τ).loc main_arg12)) := by
  rw [← W5_arg12 m ρ c]
  exact mid_v14 (W5 m ρ c)

end Cert.KernelIdeal.Gen

end
-- ==== Proof.Pay.lean ====
import proofs.«423183_j50654844289862_1_alg».proof.Proof.Gen.KernelIdeal.Skeleton
import proofs.«423183_j50654844289862_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.Spec

/-! ## One affine layer of a kernel body, read at an index -/

/-- A plain matrix product (rows × contraction times contraction × columns) into the zero accumulator, read at row `p`
    and column `q`: the sum over the contracted axis of the products. -/
private theorem matmul_plain_apply {M K N : Nat} {φ₁ φ₂ : FTy}
    (A : FVec Ideal ⟨2, ![M, K]⟩ φ₁) (B : FVec Ideal ⟨2, ![K, N]⟩ φ₂) (p : Fin M) (q : Fin N) :
    matmul (DotDims.plain M K N) none A B (constant (F := Ideal) ⟨2, ![M, N]⟩ .f32 0x00000000#32) (ix2 p q)
      = ∑ k : Fin K, A (ix2 p k) * B (ix2 k q) := by
  show FloatOps.matmul (DotDims.plain M K N) none A B (constant (F := Ideal) ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => rfl)
  rw [el, er]

/-- An affine layer as a kernel body writes it — the matrix product into the zero accumulator plus the one bias row
    broadcast down the rows — read at row `p` and column `q`, is `dense` of what row `p` of the left operand, the
    weights and the bias row are known to be. -/
private theorem dense_apply {M K N : Nat} {φ₁ φ₂ : FTy} (D : DotDims ⟨2, ![M, K]⟩ ⟨2, ![K, N]⟩ ⟨2, ![M, N]⟩)
    (hD : D = DotDims.plain M K N)
    (A : FVec Ideal ⟨2, ![M, K]⟩ φ₁) (B : FVec Ideal ⟨2, ![K, N]⟩ φ₂) (b : FVec Ideal ⟨2, ![1, N]⟩ .f32)
    (hb : (⟨2, ![1, N]⟩ : Shape).Broadcasts ⟨2, ![M, N]⟩) (p : Fin M) (q : Fin N)
    (x : Fin K → EReal) (W : (⟨2, ![K, N]⟩ : Shape).Idx → EReal) (c : Fin N → EReal)
    (hx : ∀ k, A (ix2 p k) = x k) (hW : ∀ k, B (ix2 k q) = W (ix2 k q)) (hc : b (ix2 (0 : Fin 1) q) = c q) :
    addf (matmul D none A B (constant (F := Ideal) ⟨2, ![M, N]⟩ .f32 0x00000000#32)) (broadcastTo ⟨2, ![M, N]⟩ b hb) (ix2 p q)
      = dense x W c q := by
  subst hD
  show matmul (DotDims.plain M K N) none A B (constant (F := Ideal) ⟨2, ![M, N]⟩ .f32 0x00000000#32) (ix2 p q)
      + broadcastTo ⟨2, ![M, N]⟩ b hb (ix2 p q) = (∑ k : Fin K, x k * W (ix2 k q)) + c q
  rw [matmul_plain_apply, broadcastTo_1b_ab_apply, hc]
  exact congrArg (· + c q) (Finset.sum_congr rfl fun k _ => by rw [hx k, hW k])

/-- The same layer followed by the rectified linear unit (a maximum with the splat of the zero word). -/
private theorem relu_dense_apply {M K N : Nat} {φ₁ φ₂ : FTy} (D : DotDims ⟨2, ![M, K]⟩ ⟨2, ![K, N]⟩ ⟨2, ![M, N]⟩)
    (hD : D = DotDims.plain M K N)
    (A : FVec Ideal ⟨2, ![M, K]⟩ φ₁) (B : FVec Ideal ⟨2, ![K, N]⟩ φ₂) (b : FVec Ideal ⟨2, ![1, N]⟩ .f32)
    (hb : (⟨2, ![1, N]⟩ : Shape).Broadcasts ⟨2, ![M, N]⟩) (p : Fin M) (q : Fin N)
    (x : Fin K → EReal) (W : (⟨2, ![K, N]⟩ : Shape).Idx → EReal) (c : Fin N → EReal)
    (hx : ∀ k, A (ix2 p k) = x k) (hW : ∀ k, B (ix2 k q) = W (ix2 k q)) (hc : b (ix2 (0 : Fin 1) q) = c q) :
    maximumf (addf (matmul D none A B (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 p q)
      = relu (dense x W c) q := by
  show max (addf (matmul D none A B (constant (F := Ideal) ⟨2, ![M, N]⟩ .f32 0x00000000#32)) (broadcastTo ⟨2, ![M, N]⟩ b hb) (ix2 p q))
      (Ideal.ofBits .f32 0x00000000#32) = max (dense x W c q) 0
  rw [dense_apply D hD A B b hb p q x W c hx hW hc, Ideal.ofBits_zero_f32]

/-! ## The concatenations along the columns, read at an index -/

/-- The edge kernel's three pieces laid end to end along the columns, read at row `p` and column `k`: the piece whose
    span of columns holds `k`, which is `cat3` of the three rows. -/
private theorem cat3_apply (A B : S16000x11.Idx → EReal) (C : S16000x4.Idx → EReal)
    (h : Shape.Concatenates [S16000x11, S16000x11, S16000x4] S16000x26 1) (p : Fin 16000) (k : Fin 26) :
    concatenate S16000x26 1 [⟨S16000x11, A⟩, ⟨S16000x11, B⟩, ⟨S16000x4, C⟩] h (ix2 p k)
      = cat3 (row A p) (row B p) (row C p) k := by
  unfold cat3
  by_cases h1 : k.val < 11
  · rw [dif_pos h1]
    exact concatenate_apply_piece (t := S16000x26) 1 [⟨S16000x11, A⟩, ⟨S16000x11, B⟩, ⟨S16000x4, C⟩] h (ix2 p k) 0 (by simp) S16000x11 A rfl rfl 0 rfl (ix2 p ⟨k.val, h1⟩)
      (fun b hb => by
        match b with
        | ⟨0, _⟩ => rfl
        | ⟨1, _⟩ => exact absurd rfl hb)
      (by show 0 + k.val = k.val; omega)
  · rw [dif_neg h1]
    by_cases h2 : k.val < 22
    · rw [dif_pos h2]
      exact concatenate_apply_piece (t := S16000x26) 1 [⟨S16000x11, A⟩, ⟨S16000x11, B⟩, ⟨S16000x4, C⟩] h (ix2 p k) 1 (by simp) S16000x11 B rfl rfl 11 rfl (ix2 p ⟨k.val - 11, by omega⟩)
        (fun b hb => by
          match b with
          | ⟨0, _⟩ => rfl
          | ⟨1, _⟩ => exact absurd rfl hb)
        (by show 11 + (k.val - 11) = k.val; omega)
    · rw [dif_neg h2]
      exact concatenate_apply_piece (t := S16000x26) 1 [⟨S16000x11, A⟩, ⟨S16000x11, B⟩, ⟨S16000x4, C⟩] h (ix2 p k) 2 (by simp) S16000x4 C rfl rfl 22 rfl
        (ix2 p ⟨k.val - 22, by have := k.isLt; omega⟩)
        (fun b hb => by
          match b with
          | ⟨0, _⟩ => rfl
          | ⟨1, _⟩ => exact absurd rfl hb)
        (by show 22 + (k.val - 22) = k.val; omega)

/-- The node kernel's two pieces laid end to end along the columns, read at row `p` and column `k`, is `cat2` of the
    two rows. -/
private theorem cat2_apply (A : S10000x11.Idx → EReal) (G : S10000x128.Idx → EReal)
    (h : Shape.Concatenates [S10000x11, S10000x128] S10000x139 1) (p : Fin 10000) (k : Fin 139) :
    concatenate S10000x139 1 [⟨S10000x11, A⟩, ⟨S10000x128, G⟩] h (ix2 p k) = cat2 (row A p) (row G p) k := by
  unfold cat2
  by_cases h1 : k.val < 11
  · rw [dif_pos h1]
    exact concatenate_apply_piece (t := S10000x139) 1 [⟨S10000x11, A⟩, ⟨S10000x128, G⟩] h (ix2 p k) 0 (by simp) S10000x11 A rfl rfl 0 rfl (ix2 p ⟨k.val, h1⟩)
      (fun b hb => by
        match b with
        | ⟨0, _⟩ => rfl
        | ⟨1, _⟩ => exact absurd rfl hb)
      (by show 0 + k.val = k.val; omega)
  · rw [dif_neg h1]
    exact concatenate_apply_piece (t := S10000x139) 1 [⟨S10000x11, A⟩, ⟨S10000x128, G⟩] h (ix2 p k) 1 (by simp) S10000x128 G rfl rfl 11 rfl
      (ix2 p ⟨k.val - 11, by have := k.isLt; omega⟩)
      (fun b hb => by
        match b with
        | ⟨0, _⟩ => rfl
        | ⟨1, _⟩ => exact absurd rfl hb)
      (by show 11 + (k.val - 11) = k.val; omega)

/-! ## The two payloads -/

/-- The edge kernel's stored value at row `p`, column `q` of its block is the edge function of row `p` of the three
    row-tiled input blocks. -/
theorem edge_pay_apply (x0 x1 : Vec Ideal S16000x11 .f32) (x2 : Vec Ideal S16000x4 .f32) (x3 : Vec Ideal S26x128 .f32)
    (x4 : Vec Ideal S1x128 .f32) (x5 : Vec Ideal S128x128 .f32) (x6 : Vec Ideal S1x128 .f32) (p : Fin 16000) (q : Fin 128) :
    k0_pay1 (F := Ideal) x0 x1 x2 x3 x4 x5 x6 (ix2 p q)
      = edgeRow (row x0 p) (row x1 p) (row x2 p) x3 (row x4 0) x5 (row x6 0) q := by
  unfold k0_pay1
  -- the second layer and its rectified linear unit, over the first layer's row
  refine relu_dense_apply dot_S16000x128_S128x128_S16000x128_1_0_0_1_n_n rfl _ _ _ _ p q _ _ _ (fun k => ?_) (fun _ => rfl)
    (congrFun (shapeCast_self x6 _) _)
  -- the first layer and its rectified linear unit, over the concatenated row
  refine Eq.trans (truncf_apply (φ := .f32) (ψ := .bf16) _ _ _)
    (relu_dense_apply dot_S16000x26_S26x128_S16000x128_1_0_0_1_n_n rfl _ _ _ _ p k _ _ _ (fun j => ?_) (fun _ => rfl)
      (congrFun (shapeCast_self x4 _) _))
  have e0 : shapeCast S16000x11 x0 shapeCasts_S16000x11_S16000x11 = x0 := shapeCast_self _ _
  have e1 : shapeCast S16000x11 x1 shapeCasts_S16000x11_S16000x11 = x1 := shapeCast_self _ _
  rw [e0, e1]
  exact cat3_apply _ _ _ _ p j

/-- The node kernel's stored value at row `p`, column `q` of its block is the node function of row `p` of the two
    row-tiled input blocks. -/
theorem node_pay_apply (x0 : Vec Ideal S10000x11 .f32) (x1 : Vec Ideal S10000x128 .f32) (x2 : Vec Ideal S139x128 .f32)
    (x3 : Vec Ideal S1x128 .f32) (x4 : Vec Ideal S128x128 .f32) (x5 : Vec Ideal S1x128 .f32) (x6 : Vec Ideal S128x4 .f32)
    (x7 : Vec Ideal S1x4 .f32) (p : Fin 10000) (q : Fin 4) :
    k1_pay1 (F := Ideal) x0 x1 x2 x3 x4 x5 x6 x7 (ix2 p q)
      = nodeRow (row x0 p) (row x1 p) x2 (row x3 0) x4 (row x5 0) x6 (row x7 0) q := by
  unfold k1_pay1
  -- the third layer, over the second layer's row
  refine dense_apply dot_S10000x128_S128x4_S10000x4_1_0_0_1_n_n rfl _ _ _ _ p q _ _ _ (fun k => ?_) (fun _ => rfl)
    (congrFun (shapeCast_self x7 _) _)
  -- the second layer, over the first layer's row
  refine Eq.trans (truncf_apply (φ := .f32) (ψ := .bf16) _ _ _)
    (dense_apply dot_S10000x128_S128x128_S10000x128_1_0_0_1_n_n rfl _ _ _ _ p k _ _ _ (fun j => ?_) (fun _ => rfl)
      (congrFun (shapeCast_self x5 _) _))
  -- the first layer and its rectified linear unit, over the concatenated row
  refine Eq.trans (truncf_apply (φ := .f32) (ψ := .bf16) _ _ _)
    (relu_dense_apply dot_S10000x139_S139x128_S10000x128_1_0_0_1_n_n rfl _ _ _ _ p j _ _ _ (fun i => ?_) (fun _ => rfl)
      (congrFun (shapeCast_self x3 _) _))
  have e1 : shapeCast S10000x128 x1 shapeCasts_S10000x128_S10000x128 = x1 := shapeCast_self _ _
  rw [e1]
  exact cat2_apply _ _ _ p i

end Cert.KernelIdeal.Pay

end
-- ==== Proof.EdgeArray.lean ====
/-
  The edge region's output array, as one function of the arrays the region finds.

  The region's grid has 100 points; point `t` stages rows `16000·t … 16000·t + 15999` of the two gathered
  arrays and of the edge attributes, the whole of each weight matrix and bias row, and writes back rows
  `16000·t … 16000·t + 15999` of the result.  What the body leaves at row `p` of its block depends on row `p` of the
  three row-tiled blocks only, that is on row `16000·t + p` of the arrays; the hundred blocks tile the result.
-/
import proofs.«423183_j50654844289862_1_alg».proof.Proof.Gen.KernelIdeal.Frame
import proofs.«423183_j50654844289862_1_alg».proof.Proof.Spec
import proofs.«423183_j50654844289862_1_alg».proof.Proof.Pay
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open Cert.Spec

variable (V : (c : Dev nD) → (b : Ref sig .tc) → Buf (Elt Ideal) ((c : Thread nD τ).loc b))

theorem hz2 : (![0, 0] : Fin 2 → Nat) = fun _ => 0 := funext fun a => by fin_cases a <;> rfl

/-! ## The arrays the edge region reads, at their literal types -/

abbrev eSrc (c : Dev nD) : FVec Ideal S1600000x11 .f32 := V c main_v4
abbrev eDst (c : Dev nD) : FVec Ideal S1600000x11 .f32 := V c main_v5
abbrev eAtt (c : Dev nD) : FVec Ideal S1600000x4 .f32 := V c main_arg2
abbrev eW1 (c : Dev nD) : FVec Ideal S26x128 .f32 := V c main_arg3
abbrev eB1 (c : Dev nD) : FVec Ideal S1x128 .f32 := V c main_v6
abbrev eW2 (c : Dev nD) : FVec Ideal S128x128 .f32 := V c main_arg5
abbrev eB2 (c : Dev nD) : FVec Ideal S1x128 .f32 := V c main_v7

/-- Every edge's features from the arrays the region finds. -/
def edgeG (c : Dev nD) : FVec Ideal S1600000x128 .f32 :=
  edgeAll (eSrc V c) (eDst V c) (eAtt V c) (eW1 V c) (row (eB1 V c) 0) (eW2 V c) (row (eB2 V c) 0)

/-- The printed index maps over the grid: the row-tiled windows sit at block row `t`, block column `0`; the weights and
    biases at block `(0, 0)`. -/
theorem idx_facts0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem t_lt0 (t : Fin cfg0.N) : t.val < 100 := by
  have h : t.val < grid0.N := t.isLt
  rw [N_0] at h
  exact h

/-! ## The blocks read off the arrays -/

/-- Row `p` of the source block at point `t` is row `16000·t + p` of the source array. -/
theorem blk0_row (c : Dev nD) (t : Fin cfg0.N) (p : Fin 16000) :
    row (iblk0 V c 0 t) p = row (eSrc V c) ⟨16000 * t.val + p.val, by have := t_lt0 t; omega⟩ := by
  obtain ⟨e0, e1, -⟩ := idx_facts0 t
  funext j
  show V c main_v4 (((cfg0.win 0).blk t).view.emb (ix2 p j)) = V c main_v4 _
  congr 1
  funext a; apply Fin.ext
  match a with
  | ⟨0, _⟩ => show win0_0.index t (0 : Fin 2) * 16000 + 1 * p.val = 16000 * t.val + p.val; omega
  | ⟨1, _⟩ => show win0_0.index t (1 : Fin 2) * 11 + 1 * j.val = j.val; omega

/-- Row `p` of the destination block at point `t` is row `16000·t + p` of the destination array. -/
theorem blk1_row (c : Dev nD) (t : Fin cfg0.N) (p : Fin 16000) :
    row (iblk0 V c 1 t) p = row (eDst V c) ⟨16000 * t.val + p.val, by have := t_lt0 t; omega⟩ := by
  obtain ⟨-, -, e0, e1, -⟩ := idx_facts0 t
  funext j
  show V c main_v5 (((cfg0.win 1).blk t).view.emb (ix2 p j)) = V c main_v5 _
  congr 1
  funext a; apply Fin.ext
  match a with
  | ⟨0, _⟩ => show win0_1.index t (0 : Fin 2) * 16000 + 1 * p.val = 16000 * t.val + p.val; omega
  | ⟨1, _⟩ => show win0_1.index t (1 : Fin 2) * 11 + 1 * j.val = j.val; omega

/-- Row `p` of the attribute block at point `t` is row `16000·t + p` of the attribute array. -/
theorem blk2_row (c : Dev nD) (t : Fin cfg0.N) (p : Fin 16000) :
    row (iblk0 V c 2 t) p = row (eAtt V c) ⟨16000 * t.val + p.val, by have := t_lt0 t; omega⟩ := by
  obtain ⟨-, -, -, -, e0, e1, -⟩ := idx_facts0 t
  funext j
  show V c main_arg2 (((cfg0.win 2).blk t).view.emb (ix2 p j)) = V c main_arg2 _
  congr 1
  funext a; apply Fin.ext
  match a with
  | ⟨0, _⟩ => show win0_2.index t (0 : Fin 2) * 16000 + 1 * p.val = 16000 * t.val + p.val; omega
  | ⟨1, _⟩ => show win0_2.index t (1 : Fin 2) * 4 + 1 * j.val = j.val; omega

/-- The first layer's weights are staged whole at every point. -/
theorem blk3_eq (c : Dev nD) (t : Fin cfg0.N) : (iblk0 V c 3 t : FVec Ideal S26x128 .f32) = eW1 V c := by
  obtain ⟨-, -, -, -, -, -, e0, e1, -⟩ := idx_facts0 t
  funext y
  show V c main_arg3 (((cfg0.win 3).blk t).view.emb y) = V c main_arg3 y
  congr 1
  funext a; apply Fin.ext
  match a with
  | ⟨0, _⟩ => show win0_3.index t (0 : Fin 2) * 26 + 1 * (y 0).val = (y 0).val; omega
  | ⟨1, _⟩ => show win0_3.index t (1 : Fin 2) * 128 + 1 * (y 1).val = (y 1).val; omega

/-- The first layer's bias row is staged whole at every point. -/
theorem blk4_eq (c : Dev nD) (t : Fin cfg0.N) : (iblk0 V c 4 t : FVec Ideal S1x128 .f32) = eB1 V c := by
  obtain ⟨-, -, -, -, -, -, -, -, e0, e1, -⟩ := idx_facts0 t
  funext y
  show V c main_v6 (((cfg0.win 4).blk t).view.emb y) = V c main_v6 y
  congr 1
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The second layer's weights are staged whole at every point. -/
theorem blk5_eq (c : Dev nD) (t : Fin cfg0.N) : (iblk0 V c 5 t : FVec Ideal S128x128 .f32) = eW2 V c := by
  obtain ⟨-, -, -, -, -, -, -, -, -, -, e0, e1, -⟩ := idx_facts0 t
  funext y
  show V c main_arg5 (((cfg0.win 5).blk t).view.emb y) = V c main_arg5 y
  congr 1
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- The second layer's bias row is staged whole at every point. -/
theorem blk6_eq (c : Dev nD) (t : Fin cfg0.N) : (iblk0 V c 6 t : FVec Ideal S1x128 .f32) = eB2 V c := by
  obtain ⟨-, -, -, -, -, -, -, -, -, -, -, -, e0, e1, -⟩ := idx_facts0 t
  funext y
  show V c main_v7 (((cfg0.win 6).blk t).view.emb y) = V c main_v7 y
  congr 1
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-! ## What a point writes back -/

/-- Entry `(p, q)` of the result block at point `t` is entry `(16000·t + p, q)` of the result array. -/
theorem emb7 (t : Fin cfg0.N) (p : Fin 16000) (q : Fin 128) :
    ((cfg0.win 7).blk t).view.emb (ix2 p q)
      = (ix2 (⟨16000 * t.val + p.val, by have := t_lt0 t; omega⟩ : Fin 1600000) q : S1600000x128.Idx) := by
  obtain ⟨-, -, -, -, -, -, -, -, -, -, -, -, -, -, e0, e1⟩ := idx_facts0 t
  funext a; apply Fin.ext
  match a with
  | ⟨0, _⟩ => show win0_7.index t (0 : Fin 2) * 16000 + 1 * p.val = 16000 * t.val + p.val; omega
  | ⟨1, _⟩ => show win0_7.index t (1 : Fin 2) * 128 + 1 * q.val = q.val; omega

/-- WHAT POINT `t` WRITES BACK is block `t` of the edge function of the arrays the region finds. -/
theorem flushed0_eq (c : Dev nD) (t : Fin cfg0.N) :
    (dat0 V c).flushed 7 t = ((cfg0.win 7).blk t).view.read (Elt Ideal) (edgeG V c) := by
  show (cfg0.win 7).cut (grid0.coords t) ((dat0 V c).after 7 t) = _
  rw [after0_7]
  unfold out0_7
  rw [View.canon_unit_zero hz2]
  simp only [View.ld_unit_zero (S := S16000x11) hz2, View.ld_unit_zero (S := S16000x4) hz2,
    View.ld_unit_zero (S := S26x128) hz2, View.ld_unit_zero (S := S1x128) hz2, View.ld_unit_zero (S := S128x128) hz2]
  funext j
  obtain ⟨p, q, rfl⟩ : ∃ (p : Fin 16000) (q : Fin 128), j = ix2 p q := ⟨j 0, j 1, eq_ix2 j⟩
  refine (Pay.edge_pay_apply (iblk0 V c 0 t) (iblk0 V c 1 t) (iblk0 V c 2 t) (iblk0 V c 3 t) (iblk0 V c 4 t)
    (iblk0 V c 5 t) (iblk0 V c 6 t) p q).trans ?_
  rw [blk0_row V c t p, blk1_row V c t p, blk2_row V c t p, blk3_eq V c t, blk4_eq V c t, blk5_eq V c t, blk6_eq V c t]
  show _ = edgeG V c (((cfg0.win 7).blk t).view.emb (ix2 p q))
  rw [emb7 t p q]
  rfl

/-! ## The blocks tile the result -/

/-- An index of the result is in point `t`'s block iff each coordinate is in the block's range on its axis. -/
theorem mem_blk0 (t : Fin cfg0.N) (i : S1600000x128.Idx) :
    i ∈ ((cfg0.win 7).blk t).view.set ↔ ∀ a : Fin 2, win0_7.index t a * S16000x128.size a ≤ (i a).val ∧ (i a).val < win0_7.index t a * S16000x128.size a + S16000x128.size a := by
  show i ∈ ((View.whole main_v8).slice (win0_7.rect t)).set ↔ _
  rw [View.set_slice_whole, Rect.mem_set_unit]
  exact Iff.rfl

/-- Row `r` of the result lies in the block of point `r / 16000`. -/
theorem cover0 (i : S1600000x128.Idx) :
    ∃ t : Fin cfg0.N, (cfg0.win 7).flush t = true ∧ i ∈ ((cfg0.win 7).blk t).view.set := by
  have hi0 : (i 0).val < 1600000 := (i 0).isLt
  have hi1 : (i 1).val < 128 := (i 1).isLt
  have ht : (i 0).val / 16000 < grid0.N := by rw [N_0]; omega
  obtain ⟨-, -, -, -, -, -, -, -, -, -, -, -, -, -, e0, e1⟩ := idx_facts0 ⟨(i 0).val / 16000, ht⟩
  refine ⟨⟨(i 0).val / 16000, ht⟩, flush0_7 _, ?_⟩
  rw [mem_blk0]
  intro a
  match a with
  | ⟨0, _⟩ =>
    show win0_7.index ⟨(i 0).val / 16000, ht⟩ (0 : Fin 2) * 16000 ≤ (i 0).val ∧ (i 0).val < win0_7.index ⟨(i 0).val / 16000, ht⟩ (0 : Fin 2) * 16000 + 16000
    have e0' : win0_7.index ⟨(i 0).val / 16000, ht⟩ (0 : Fin 2) = (i 0).val / 16000 := e0
    omega
  | ⟨1, _⟩ =>
    show win0_7.index ⟨(i 0).val / 16000, ht⟩ (1 : Fin 2) * 128 ≤ (i 1).val ∧ (i 1).val < win0_7.index ⟨(i 0).val / 16000, ht⟩ (1 : Fin 2) * 128 + 128
    omega

/-- THE EDGE FEATURES after the region: the edge function of the arrays the region finds, row by row. -/
theorem final0 (c : Dev nD) : (dat0 V c).arrAt 7 cfg0.N = edgeG V c :=
  (dat0 V c).arrAt_eq_of_cover 7 (edgeG V c) (fun t _ => flushed0_eq V c t) (cover0)

end Cert.KernelIdeal.Gen

end
-- ==== Proof.NodeArray.lean ====
/-
  The node region's output array, as one function of the arrays the region finds.

  The region's grid has 10 points; point `t` stages rows `10000·t … 10000·t + 9999` of the node features and of the
  aggregated edge features, the whole of each weight matrix and bias row, and writes back rows
  `10000·t … 10000·t + 9999` of the result.  What the body leaves at row `p` of its block depends on row `p` of the
  two row-tiled blocks only, that is on row `10000·t + p` of the arrays; the ten blocks tile the result.
-/
import proofs.«423183_j50654844289862_1_alg».proof.Proof.Gen.KernelIdeal.Frame
import proofs.«423183_j50654844289862_1_alg».proof.Proof.Spec
import proofs.«423183_j50654844289862_1_alg».proof.Proof.Pay
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open Cert.Spec

variable (V : (c : Dev nD) → (b : Ref sig .tc) → Buf (Elt Ideal) ((c : Thread nD τ).loc b))

theorem hz2n : (![0, 0] : Fin 2 → Nat) = fun _ => 0 := funext fun a => by fin_cases a <;> rfl

/-! ## The arrays the node region reads, at their literal types -/

abbrev nFeat (c : Dev nD) : FVec Ideal S100000x11 .f32 := V c main_arg0
abbrev nAgg (c : Dev nD) : FVec Ideal S100000x128 .f32 := V c main_v11
abbrev nW1 (c : Dev nD) : FVec Ideal S139x128 .f32 := V c main_arg7
abbrev nB1 (c : Dev nD) : FVec Ideal S1x128 .f32 := V c main_v12
abbrev nW2 (c : Dev nD) : FVec Ideal S128x128 .f32 := V c main_arg9
abbrev nB2 (c : Dev nD) : FVec Ideal S1x128 .f32 := V c main_v13
abbrev nW3 (c : Dev nD) : FVec Ideal S128x4 .f32 := V c main_arg11
abbrev nB3 (c : Dev nD) : FVec Ideal S1x4 .f32 := V c main_v14

/-- Every node's embedding from the arrays the region finds. -/
def nodeG (c : Dev nD) : FVec Ideal S100000x4 .f32 :=
  nodeAll (nFeat V c) (nAgg V c) (nW1 V c) (row (nB1 V c) 0) (nW2 V c) (row (nB2 V c) 0) (nW3 V c) (row (nB3 V c) 0)

/-- The printed index maps over the grid: the row-tiled windows sit at block row `t`, block column `0`; the weights and
    biases at block `(0, 0)`. -/
theorem idx_facts1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

theorem t_lt1 (t : Fin cfg1.N) : t.val < 10 := by
  have h : t.val < grid1.N := t.isLt
  rw [N_1] at h
  exact h

/-! ## The blocks read off the arrays -/

/-- Row `p` of the node-feature block at point `t` is row `10000·t + p` of the node features. -/
theorem nblk0_row (c : Dev nD) (t : Fin cfg1.N) (p : Fin 10000) :
    row (iblk1 V c 0 t) p = row (nFeat V c) ⟨10000 * t.val + p.val, by have := t_lt1 t; omega⟩ := by
  obtain ⟨e0, e1, -⟩ := idx_facts1 t
  funext j
  show V c main_arg0 (((cfg1.win 0).blk t).view.emb (ix2 p j)) = V c main_arg0 _
  congr 1
  funext a; apply Fin.ext
  match a with
  | ⟨0, _⟩ => show win1_0.index t (0 : Fin 2) * 10000 + 1 * p.val = 10000 * t.val + p.val; omega
  | ⟨1, _⟩ => show win1_0.index t (1 : Fin 2) * 11 + 1 * j.val = j.val; omega

/-- Row `p` of the aggregate block at point `t` is row `10000·t + p` of the aggregated edge features. -/
theorem nblk1_row (c : Dev nD) (t : Fin cfg1.N) (p : Fin 10000) :
    row (iblk1 V c 1 t) p = row (nAgg V c) ⟨10000 * t.val + p.val, by have := t_lt1 t; omega⟩ := by
  obtain ⟨-, -, e0, e1, -⟩ := idx_facts1 t
  funext j
  show V c main_v11 (((cfg1.win 1).blk t).view.emb (ix2 p j)) = V c main_v11 _
  congr 1
  funext a; apply Fin.ext
  match a with
  | ⟨0, _⟩ => show win1_1.index t (0 : Fin 2) * 10000 + 1 * p.val = 10000 * t.val + p.val; omega
  | ⟨1, _⟩ => show win1_1.index t (1 : Fin 2) * 128 + 1 * j.val = j.val; omega

/-- The first layer's weights are staged whole at every point. -/
theorem nblk2_eq (c : Dev nD) (t : Fin cfg1.N) : (iblk1 V c 2 t : FVec Ideal S139x128 .f32) = nW1 V c := by
  obtain ⟨-, -, -, -, e0, e1, -⟩ := idx_facts1 t
  funext y
  show V c main_arg7 (((cfg1.win 2).blk t).view.emb y) = V c main_arg7 y
  congr 1
  funext a; apply Fin.ext
  match a with
  | ⟨0, _⟩ => show win1_2.index t (0 : Fin 2) * 139 + 1 * (y 0).val = (y 0).val; omega
  | ⟨1, _⟩ => show win1_2.index t (1 : Fin 2) * 128 + 1 * (y 1).val = (y 1).val; omega

/-- The first layer's bias row is staged whole at every point. -/
theorem nblk3_eq (c : Dev nD) (t : Fin cfg1.N) : (iblk1 V c 3 t : FVec Ideal S1x128 .f32) = nB1 V c := by
  obtain ⟨-, -, -, -, -, -, e0, e1, -⟩ := idx_facts1 t
  funext y
  show V c main_v12 (((cfg1.win 3).blk t).view.emb y) = V c main_v12 y
  congr 1
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The second layer's weights are staged whole at every point. -/
theorem nblk4_eq (c : Dev nD) (t : Fin cfg1.N) : (iblk1 V c 4 t : FVec Ideal S128x128 .f32) = nW2 V c := by
  obtain ⟨-, -, -, -, -, -, -, -, e0, e1, -⟩ := idx_facts1 t
  funext y
  show V c main_arg9 (((cfg1.win 4).blk t).view.emb y) = V c main_arg9 y
  congr 1
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The second layer's bias row is staged whole at every point. -/
theorem nblk5_eq (c : Dev nD) (t : Fin cfg1.N) : (iblk1 V c 5 t : FVec Ideal S1x128 .f32) = nB2 V c := by
  obtain ⟨-, -, -, -, -, -, -, -, -, -, e0, e1, -⟩ := idx_facts1 t
  funext y
  show V c main_v13 (((cfg1.win 5).blk t).view.emb y) = V c main_v13 y
  congr 1
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- The embedding head's weights are staged whole at every point. -/
theorem nblk6_eq (c : Dev nD) (t : Fin cfg1.N) : (iblk1 V c 6 t : FVec Ideal S128x4 .f32) = nW3 V c := by
  obtain ⟨-, -, -, -, -, -, -, -, -, -, -, -, e0, e1, -⟩ := idx_facts1 t
  funext y
  show V c main_arg11 (((cfg1.win 6).blk t).view.emb y) = V c main_arg11 y
  congr 1
  funext a; apply Fin.ext
  match a with
  | ⟨0, _⟩ => show win1_6.index t (0 : Fin 2) * 128 + 1 * (y 0).val = (y 0).val; omega
  | ⟨1, _⟩ => show win1_6.index t (1 : Fin 2) * 4 + 1 * (y 1).val = (y 1).val; omega

/-- The embedding head's bias row is staged whole at every point. -/
theorem nblk7_eq (c : Dev nD) (t : Fin cfg1.N) : (iblk1 V c 7 t : FVec Ideal S1x4 .f32) = nB3 V c := by
  obtain ⟨-, -, -, -, -, -, -, -, -, -, -, -, -, -, e0, e1, -⟩ := idx_facts1 t
  funext y
  show V c main_v14 (((cfg1.win 7).blk t).view.emb y) = V c main_v14 y
  congr 1
  funext a; apply Fin.ext
  match a with
  | ⟨0, _⟩ => show win1_7.index t (0 : Fin 2) * 1 + 1 * (y 0).val = (y 0).val; omega
  | ⟨1, _⟩ => show win1_7.index t (1 : Fin 2) * 4 + 1 * (y 1).val = (y 1).val; omega

/-! ## What a point writes back -/

/-- Entry `(p, q)` of the result block at point `t` is entry `(10000·t + p, q)` of the result array. -/
theorem emb8 (t : Fin cfg1.N) (p : Fin 10000) (q : Fin 4) :
    ((cfg1.win 8).blk t).view.emb (ix2 p q)
      = (ix2 (⟨10000 * t.val + p.val, by have := t_lt1 t; omega⟩ : Fin 100000) q : S100000x4.Idx) := by
  obtain ⟨-, -, -, -, -, -, -, -, -, -, -, -, -, -, -, -, e0, e1⟩ := idx_facts1 t
  funext a; apply Fin.ext
  match a with
  | ⟨0, _⟩ => show win1_8.index t (0 : Fin 2) * 10000 + 1 * p.val = 10000 * t.val + p.val; omega
  | ⟨1, _⟩ => show win1_8.index t (1 : Fin 2) * 4 + 1 * q.val = q.val; omega

/-- WHAT POINT `t` WRITES BACK is block `t` of the node function of the arrays the region finds. -/
theorem flushed1_eq (c : Dev nD) (t : Fin cfg1.N) :
    (dat1 V c).flushed 8 t = ((cfg1.win 8).blk t).view.read (Elt Ideal) (nodeG V c) := by
  show (cfg1.win 8).cut (grid1.coords t) ((dat1 V c).after 8 t) = _
  rw [after1_8]
  unfold out1_8
  rw [View.canon_unit_zero hz2n]
  simp only [View.ld_unit_zero (S := S10000x11) hz2n, View.ld_unit_zero (S := S10000x128) hz2n,
    View.ld_unit_zero (S := S139x128) hz2n, View.ld_unit_zero (S := S1x128) hz2n, View.ld_unit_zero (S := S128x128) hz2n,
    View.ld_unit_zero (S := S128x4) hz2n, View.ld_unit_zero (S := S1x4) hz2n]
  funext j
  obtain ⟨p, q, rfl⟩ : ∃ (p : Fin 10000) (q : Fin 4), j = ix2 p q := ⟨j 0, j 1, eq_ix2 j⟩
  refine (Pay.node_pay_apply (iblk1 V c 0 t) (iblk1 V c 1 t) (iblk1 V c 2 t) (iblk1 V c 3 t) (iblk1 V c 4 t)
    (iblk1 V c 5 t) (iblk1 V c 6 t) (iblk1 V c 7 t) p q).trans ?_
  rw [nblk0_row V c t p, nblk1_row V c t p, nblk2_eq V c t, nblk3_eq V c t, nblk4_eq V c t, nblk5_eq V c t,
    nblk6_eq V c t, nblk7_eq V c t]
  show _ = nodeG V c (((cfg1.win 8).blk t).view.emb (ix2 p q))
  rw [emb8 t p q]
  rfl

/-! ## The blocks tile the result -/

/-- An index of the result is in point `t`'s block iff each coordinate is in the block's range on its axis. -/
theorem mem_blk1 (t : Fin cfg1.N) (i : S100000x4.Idx) :
    i ∈ ((cfg1.win 8).blk t).view.set ↔ ∀ a : Fin 2, win1_8.index t a * S10000x4.size a ≤ (i a).val ∧ (i a).val < win1_8.index t a * S10000x4.size a + S10000x4.size a := by
  show i ∈ ((View.whole main_v15).slice (win1_8.rect t)).set ↔ _
  rw [View.set_slice_whole, Rect.mem_set_unit]
  exact Iff.rfl

/-- Row `r` of the result lies in the block of point `r / 10000`. -/
theorem cover1 (i : S100000x4.Idx) :
    ∃ t : Fin cfg1.N, (cfg1.win 8).flush t = true ∧ i ∈ ((cfg1.win 8).blk t).view.set := by
  have hi0 : (i 0).val < 100000 := (i 0).isLt
  have hi1 : (i 1).val < 4 := (i 1).isLt
  have ht : (i 0).val / 10000 < grid1.N := by rw [N_1]; omega
  obtain ⟨-, -, -, -, -, -, -, -, -, -, -, -, -, -, -, -, e0, e1⟩ := idx_facts1 ⟨(i 0).val / 10000, ht⟩
  refine ⟨⟨(i 0).val / 10000, ht⟩, flush1_8 _, ?_⟩
  rw [mem_blk1]
  intro a
  match a with
  | ⟨0, _⟩ =>
    show win1_8.index ⟨(i 0).val / 10000, ht⟩ (0 : Fin 2) * 10000 ≤ (i 0).val ∧ (i 0).val < win1_8.index ⟨(i 0).val / 10000, ht⟩ (0 : Fin 2) * 10000 + 10000
    have e0' : win1_8.index ⟨(i 0).val / 10000, ht⟩ (0 : Fin 2) = (i 0).val / 10000 := e0
    omega
  | ⟨1, _⟩ =>
    show win1_8.index ⟨(i 0).val / 10000, ht⟩ (1 : Fin 2) * 4 ≤ (i 1).val ∧ (i 1).val < win1_8.index ⟨(i 0).val / 10000, ht⟩ (1 : Fin 2) * 4 + 4
    omega

/-- THE RESULT after the region: the node function of the arrays the region finds, row by row. -/
theorem final1 (c : Dev nD) : (dat1 V c).arrAt 8 cfg1.N = nodeG V c :=
  (dat1 V c).arrAt_eq_of_cover 8 (nodeG V c) (fun t _ => flushed1_eq V c t) (cover1)

end Cert.KernelIdeal.Gen

end
-- ==== Proof.ResultVal.lean ====
/-
  The kernel program's run with its result named as a function of the arguments.

  The result array is the node region's output, the node function of what that region finds; what it finds is the
  node features, the weights and biases as launched, and the scatter-add of the edge region's output; the edge
  region's output is the edge function of what that region finds: the two row lookups of the node features, the edge
  attributes, the weights and biases as launched.
-/
import proofs.«423183_j50654844289862_1_alg».proof.Proof.HostVals
import proofs.«423183_j50654844289862_1_alg».proof.Proof.EdgeArray
import proofs.«423183_j50654844289862_1_alg».proof.Proof.NodeArray
import proofs.«423183_j50654844289862_1_alg».proof.Proof.KernelRun

set_option maxRecDepth 16384

noncomputable section

namespace Cert.KernelIdeal.Gen

open Idealize.ShloMosaic Idealize.ShloMosaic.TcCoe
open Idealize.SL Idealize.SL.Sem
open Cert.KernelIdeal.Take Cert.Spec

-- the whole-array reductions, gathers and scatters are compared by their arguments, never opened
attribute [local irreducible] Host.reduce Host.gather Host.scatterAdd

variable (m : (ℓ : Loc nD τ sig) → Buf (Elt Ideal) ℓ) (ρ : Dev nD → PrngReg)

/-- What the edge region finds, in the edge function: the edge features as a function of the arguments. -/
theorem edge_entry (c : Dev nD) : edgeG (V4 m ρ) c = edgeVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold edgeG edgeVal
  rw [show eSrc (V4 m ρ) c = takeVal (m ((c : Thread nD τ).loc main_arg0)) (rowVec (m ((c : Thread nD τ).loc main_arg1))) from W4_v4 m ρ c,
    show eDst (V4 m ρ) c = takeVal (m ((c : Thread nD τ).loc main_arg0)) (colVec (m ((c : Thread nD τ).loc main_arg1))) from W4_v5 m ρ c,
    show eAtt (V4 m ρ) c = m ((c : Thread nD τ).loc main_arg2) from W4_arg2 m ρ c,
    show eW1 (V4 m ρ) c = m ((c : Thread nD τ).loc main_arg3) from W4_arg3 m ρ c,
    show eB1 (V4 m ρ) c = biasRow128 (m ((c : Thread nD τ).loc main_arg4)) from W4_v6 m ρ c,
    show eW2 (V4 m ρ) c = m ((c : Thread nD τ).loc main_arg5) from W4_arg5 m ρ c,
    show eB2 (V4 m ρ) c = biasRow128 (m ((c : Thread nD τ).loc main_arg6)) from W4_v7 m ρ c]

/-- The edge region leaves the edge features in its result array. -/
theorem W5_v8 (c : Dev nD) : W5 m ρ c (Proc.devRef .tc main_v8) = edgeVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((W5_arr m ρ c 7).trans (final0 (V4 m ρ) c)).trans (edge_entry m ρ c)

/-- What the node region finds, in the node function: the result as a function of the arguments. -/
theorem node_entry (c : Dev nD) : nodeG (V6 m ρ) c = kernelVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold nodeG kernelVal
  rw [show nFeat (V6 m ρ) c = m ((c : Thread nD τ).loc main_arg0) from W6_arg0 m ρ c,
    show nAgg (V6 m ρ) c = aggOf (rowVec (m ((c : Thread nD τ).loc main_arg1))) (edgeVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
      from (W6_v11 m ρ c).trans (congrArg (aggOf (rowVec (m ((c : Thread nD τ).loc main_arg1)))) (W5_v8 m ρ c)),
    show nW1 (V6 m ρ) c = m ((c : Thread nD τ).loc main_arg7) from W6_arg7 m ρ c,
    show nB1 (V6 m ρ) c = biasRow128 (m ((c : Thread nD τ).loc main_arg8)) from W6_v12 m ρ c,
    show nW2 (V6 m ρ) c = m ((c : Thread nD τ).loc main_arg9) from W6_arg9 m ρ c,
    show nB2 (V6 m ρ) c = biasRow128 (m ((c : Thread nD τ).loc main_arg10)) from W6_v13 m ρ c,
    show nW3 (V6 m ρ) c = m ((c : Thread nD τ).loc main_arg11) from W6_arg11 m ρ c,
    show nB3 (V6 m ρ) c = biasRow4 (m ((c : Thread nD τ).loc main_arg12)) from W6_v14 m ρ c]

/-- The node region leaves the result in the result array. -/
theorem result_val (c : Dev nD) : W7 m ρ c (Proc.devRef .tc main_v15) = kernelVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  ((W7_arr m ρ c 8).trans (final1 (V6 m ρ) c)).trans (node_entry m ρ c)

/-- THE RUN, READ: every weakly fair execution of the kernel program terminates, nothing faulting, with the result
    array at the kernel function of the arguments and the arguments as launched. -/
theorem run_value : θ_run defs (onTc (τ := τ) (main (F := Ideal))) ⟨m, fun _ => 0, ρ⟩ (fun r => ∀ c : Dev nD,
      r.2.mem ((c.tc : Thread nD τ).loc main_v15) = kernelVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result_val m ρ c), (h c).2⟩) (run_result m ρ)

end Cert.KernelIdeal.Gen

end
-- ==== Proof.RefValue.lean ====
import proofs.«423183_j50654844289862_1_alg».proof.Proof.Gen.ReferenceIdeal.Read
import proofs.«423183_j50654844289862_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read Cert.Spec

/-! ## The row functions, spelt out at a coordinate -/

/-- An affine layer at a coordinate: the whole contracted sum, then the bias. -/
private theorem dense_apply {K N : Nat} (x : Fin K → EReal) (W : (⟨2, ![K, N]⟩ : Shape).Idx → EReal) (b : Fin N → EReal)
    (q : Fin N) : dense x W b q = (∑ k : Fin K, x k * W (ix2 k q)) + b q := rfl

/-- The rectified linear unit at a coordinate. -/
private theorem relu_apply {N : Nat} (v : Fin N → EReal) (q : Fin N) : relu v q = max (v q) 0 := rfl

/-- The first eleven coordinates of the three-piece row are the source row's. -/
private theorem cat3_lo (s d : Fin 11 → EReal) (a : Fin 4 → EReal) (k : Fin 26) (h : k.val < 11) :
    cat3 s d a k = s ⟨k.val, h⟩ := by
  unfold cat3; rw [dif_pos h]

/-- The next eleven are the destination row's. -/
private theorem cat3_mid (s d : Fin 11 → EReal) (a : Fin 4 → EReal) (k : Fin 26) (h : ¬ k.val < 11) (h2 : k.val < 22) :
    cat3 s d a k = d ⟨k.val - 11, by omega⟩ := by
  unfold cat3; rw [dif_neg h, dif_pos h2]

/-- The last four are the edge's attributes. -/
private theorem cat3_hi (s d : Fin 11 → EReal) (a : Fin 4 → EReal) (k : Fin 26) (h : ¬ k.val < 11) (h2 : ¬ k.val < 22) :
    cat3 s d a k = a ⟨k.val - 22, by have := k.isLt; omega⟩ := by
  unfold cat3; rw [dif_neg h, dif_neg h2]

/-- The first eleven coordinates of the two-piece row are the node's own. -/
private theorem cat2_lo (n : Fin 11 → EReal) (g : Fin 128 → EReal) (k : Fin 139) (h : k.val < 11) :
    cat2 n g k = n ⟨k.val, h⟩ := by
  unfold cat2; rw [dif_pos h]

/-- The remaining 128 are the aggregated edge features. -/
private theorem cat2_hi (n : Fin 11 → EReal) (g : Fin 128 → EReal) (k : Fin 139) (h : ¬ k.val < 11) :
    cat2 n g k = g ⟨k.val - 11, by have := k.isLt; omega⟩ := by
  unfold cat2; rw [dif_neg h]

/-! ## The two concatenations read at an index

Along axis 1 the pieces' extents are 11, 11, 4 (and 11, 128): a column `k` lies in the piece whose span holds it, at `k`
less the extents before that piece; the row coordinate is untouched. -/

/-- Source rows, destination rows and attributes joined along axis 1, at row `e` and column `k`. -/
private theorem cat3_read (hc : Shape.Concatenates [S1600000x11, S1600000x11, S1600000x4] S1600000x26 1)
    (A B : S1600000x11.Idx → EReal) (C : S1600000x4.Idx → EReal) (e : Fin 1600000) (k : Fin 26) :
    concatenate S1600000x26 1 [⟨S1600000x11, A⟩, ⟨S1600000x11, B⟩, ⟨S1600000x4, C⟩] hc (ix2 e k)
      = cat3 (row A e) (row B e) (row C e) k := by
  by_cases h1 : k.val < 11
  · rw [cat3_lo _ _ _ k h1]
    exact concatenate_apply_piece (1 : Fin S1600000x26.rank) [⟨S1600000x11, A⟩, ⟨S1600000x11, B⟩, ⟨S1600000x4, C⟩] hc
      (ix2 e k) 0 (show 0 < 3 by omega) S1600000x11 A rfl rfl 0 rfl (ix2 e ⟨k.val, h1⟩)
      (fun b hb => by
        match b with
        | ⟨0, _⟩ => rfl
        | ⟨1, _⟩ => exact absurd rfl hb)
      (Nat.zero_add _)
  · by_cases h2 : k.val < 22
    · rw [cat3_mid _ _ _ k h1 h2]
      exact concatenate_apply_piece (1 : Fin S1600000x26.rank) [⟨S1600000x11, A⟩, ⟨S1600000x11, B⟩, ⟨S1600000x4, C⟩] hc
        (ix2 e k) 1 (show 1 < 3 by omega) S1600000x11 B rfl rfl 11 rfl (ix2 e ⟨k.val - 11, by omega⟩)
        (fun b hb => by
          match b with
          | ⟨0, _⟩ => rfl
          | ⟨1, _⟩ => exact absurd rfl hb)
        (by show 11 + (k.val - 11) = k.val; omega)
    · rw [cat3_hi _ _ _ k h1 h2]
      exact concatenate_apply_piece (1 : Fin S1600000x26.rank) [⟨S1600000x11, A⟩, ⟨S1600000x11, B⟩, ⟨S1600000x4, C⟩] hc
        (ix2 e k) 2 (show 2 < 3 by omega) S1600000x4 C rfl rfl 22 rfl (ix2 e ⟨k.val - 22, by have := k.isLt; omega⟩)
        (fun b hb => by
          match b with
          | ⟨0, _⟩ => rfl
          | ⟨1, _⟩ => exact absurd rfl hb)
        (by show 22 + (k.val - 22) = k.val; omega)

/-- Node rows and aggregated edge features joined along axis 1, at row `n` and column `k`. -/
private theorem cat2_read (hc : Shape.Concatenates [S100000x11, S100000x128] S100000x139 1)
    (A : S100000x11.Idx → EReal) (G : S100000x128.Idx → EReal) (n : Fin 100000) (k : Fin 139) :
    concatenate S100000x139 1 [⟨S100000x11, A⟩, ⟨S100000x128, G⟩] hc (ix2 n k) = cat2 (row A n) (row G n) k := by
  by_cases h1 : k.val < 11
  · rw [cat2_lo _ _ k h1]
    exact concatenate_apply_piece (1 : Fin S100000x139.rank) [⟨S100000x11, A⟩, ⟨S100000x128, G⟩] hc
      (ix2 n k) 0 (show 0 < 2 by omega) S100000x11 A rfl rfl 0 rfl (ix2 n ⟨k.val, h1⟩)
      (fun b hb => by
        match b with
        | ⟨0, _⟩ => rfl
        | ⟨1, _⟩ => exact absurd rfl hb)
      (Nat.zero_add _)
  · rw [cat2_hi _ _ k h1]
    exact concatenate_apply_piece (1 : Fin S100000x139.rank) [⟨S100000x11, A⟩, ⟨S100000x128, G⟩] hc
      (ix2 n k) 1 (show 1 < 2 by omega) S100000x128 G rfl rfl 11 rfl (ix2 n ⟨k.val - 11, by have := k.isLt; omega⟩)
      (fun b hb => by
        match b with
        | ⟨0, _⟩ => rfl
        | ⟨1, _⟩ => exact absurd rfl hb)
      (by show 11 + (k.val - 11) = k.val; omega)

/-! ## The constants and the broadcast biases -/

/-- The zero the edge function's first rectified linear unit compares with. -/
private theorem zero_call0 (i : S1600000x128.Idx) : val_main_call0_v0 (F := Ideal) i = (0 : EReal) := by
  rw [val_main_call0_v0_apply, val_main_call0_cst_apply, Ideal.ofBits_def, Ideal.ofBits_zero_f32]

/-- The zero the edge function's second rectified linear unit compares with. -/
private theorem zero_call1 (i : S1600000x128.Idx) : val_main_call1_v0 (F := Ideal) i = (0 : EReal) := by
  rw [val_main_call1_v0_apply, val_main_call1_cst_apply, Ideal.ofBits_def, Ideal.ofBits_zero_f32]

/-- The zero the node function's rectified linear unit compares with. -/
private theorem zero_call2 (i : S100000x128.Idx) : val_main_call2_v0 (F := Ideal) i = (0 : EReal) := by
  rw [val_main_call2_v0_apply, val_main_call2_cst_apply, Ideal.ofBits_def, Ideal.ofBits_zero_f32]

/-- A bias vector broadcast down the rows is, at row `e` and column `q`, its entry `q`. -/
private theorem bias_v21 (x4 : FVec Ideal S128 .f32) (e : Fin 1600000) (q : Fin 128) :
    val_main_v21 (F := Ideal) x4 (ix2 e q) = vec x4 q := by
  rw [val_main_v21_apply, val_main_v20_apply]
  exact congrArg x4 (funext fun a => by match a with | ⟨0, _⟩ => rfl)

private theorem bias_v26 (x6 : FVec Ideal S128 .f32) (e : Fin 1600000) (q : Fin 128) :
    val_main_v26 (F := Ideal) x6 (ix2 e q) = vec x6 q := by
  rw [val_main_v26_apply, val_main_v25_apply]
  exact congrArg x6 (funext fun a => by match a with | ⟨0, _⟩ => rfl)

private theorem bias_v35 (x8 : FVec Ideal S128 .f32) (n : Fin 100000) (q : Fin 128) :
    val_main_v35 (F := Ideal) x8 (ix2 n q) = vec x8 q := by
  rw [val_main_v35_apply, val_main_v34_apply]
  exact congrArg x8 (funext fun a => by match a with | ⟨0, _⟩ => rfl)

private theorem bias_v40 (x10 : FVec Ideal S128 .f32) (n : Fin 100000) (q : Fin 128) :
    val_main_v40 (F := Ideal) x10 (ix2 n q) = vec x10 q := by
  rw [val_main_v40_apply, val_main_v39_apply]
  exact congrArg x10 (funext fun a => by match a with | ⟨0, _⟩ => rfl)

private theorem bias_v44 (x12 : FVec Ideal S4 .f32) (n : Fin 100000) (q : Fin 4) :
    val_main_v44 (F := Ideal) x12 (ix2 n q) = vec x12 q := by
  rw [val_main_v44_apply, val_main_v43_apply]
  exact congrArg x12 (funext fun a => by match a with | ⟨0, _⟩ => rfl)

/-! ## The edge function, stage by stage

The two gathered arrays stay as they are named: only their rows are read. -/

/-- The concatenated edge input at row `e`, column `k`. -/
private theorem v18_read (x0 : FVec Ideal S100000x11 .f32) (x1 : IVec S2x1600000 32) (x2 : FVec Ideal S1600000x4 .f32)
    (e : Fin 1600000) (k : Fin 26) :
    val_main_v18 (F := Ideal) x0 x1 x2 (ix2 e k)
      = cat3 (row (val_main_v10 (F := Ideal) x0 x1) e) (row (val_main_v17 (F := Ideal) x0 x1) e) (row x2 e) k := by
  unfold val_main_v18
  exact cat3_read _ (val_main_v10 (F := Ideal) x0 x1) (val_main_v17 (F := Ideal) x0 x1) x2 e k

/-- The first affine layer of the edge function. -/
private theorem v22_eq (x0 : FVec Ideal S100000x11 .f32) (x1 : IVec S2x1600000 32) (x2 : FVec Ideal S1600000x4 .f32)
    (x3 : FVec Ideal S26x128 .f32) (x4 : FVec Ideal S128 .f32) (e : Fin 1600000) (q : Fin 128) :
    val_main_v22 (F := Ideal) x0 x1 x2 x3 x4 (ix2 e q)
      = dense (cat3 (row (val_main_v10 (F := Ideal) x0 x1) e) (row (val_main_v17 (F := Ideal) x0 x1) e) (row x2 e))
          x3 (vec x4) q := by
  rw [val_main_v22_apply, val_main_v19_apply, bias_v21, Ideal.addf_def, dense_apply]
  refine congrArg (· + vec x4 q) (Finset.sum_congr rfl fun k _ => ?_)
  have hl : lidx_main_v19 (ix2 e q) k = ix2 e k :=
    funext fun a => Fin.ext (by match a with | ⟨0, _⟩ => rfl | ⟨1, _⟩ => rfl)
  have hr : ridx_main_v19 (ix2 e q) k = ix2 k q :=
    funext fun a => Fin.ext (by match a with | ⟨0, _⟩ => rfl | ⟨1, _⟩ => rfl)
  rw [hl, hr, v18_read]

/-- The first rectified linear unit of the edge function. -/
private theorem v23_eq (x0 : FVec Ideal S100000x11 .f32) (x1 : IVec S2x1600000 32) (x2 : FVec Ideal S1600000x4 .f32)
    (x3 : FVec Ideal S26x128 .f32) (x4 : FVec Ideal S128 .f32) (e : Fin 1600000) (q : Fin 128) :
    val_main_v23 (F := Ideal) x0 x1 x2 x3 x4 (ix2 e q)
      = relu (dense (cat3 (row (val_main_v10 (F := Ideal) x0 x1) e) (row (val_main_v17 (F := Ideal) x0 x1) e) (row x2 e))
          x3 (vec x4)) q := by
  rw [val_main_v23_apply, zero_call0, v22_eq, Ideal.maximumf_def, relu_apply]

/-- The reference's edge features are the edge function of the two gathered arrays and the edge attributes, row by row. -/
theorem ref_edge (x0 : FVec Ideal S100000x11 .f32) (x1 : IVec S2x1600000 32) (x2 : FVec Ideal S1600000x4 .f32)
    (x3 : FVec Ideal S26x128 .f32) (x4 : FVec Ideal S128 .f32) (x5 : FVec Ideal S128x128 .f32) (x6 : FVec Ideal S128 .f32) :
    val_main_v28 (F := Ideal) x0 x1 x2 x3 x4 x5 x6
      = edgeAll (val_main_v10 (F := Ideal) x0 x1) (val_main_v17 (F := Ideal) x0 x1) x2 x3 (vec x4) x5 (vec x6) := by
  funext i
  obtain ⟨e, q, rfl⟩ : ∃ (e : Fin 1600000) (q : Fin 128), i = ix2 e q := ⟨i 0, i 1, eq_ix2 i⟩
  rw [edgeAll_apply, val_main_v28_apply, zero_call1, val_main_v27_apply, val_main_v24_apply, bias_v26,
    Ideal.maximumf_def, Ideal.addf_def]
  unfold edgeRow
  rw [relu_apply, dense_apply]
  refine congrArg (fun s => max (s + vec x6 q) 0) (Finset.sum_congr rfl fun k _ => ?_)
  have hl : lidx_main_v24 (ix2 e q) k = ix2 e k :=
    funext fun a => Fin.ext (by match a with | ⟨0, _⟩ => rfl | ⟨1, _⟩ => rfl)
  have hr : ridx_main_v24 (ix2 e q) k = ix2 k q :=
    funext fun a => Fin.ext (by match a with | ⟨0, _⟩ => rfl | ⟨1, _⟩ => rfl)
  rw [hl, hr, v23_eq]

/-! ## The node function, stage by stage

The scatter-add stays as it is named: only its rows are read. -/

/-- The concatenated node input at row `n`, column `k`. -/
private theorem v32_read (x0 : FVec Ideal S100000x11 .f32) (x1 : IVec S2x1600000 32) (x2 : FVec Ideal S1600000x4 .f32)
    (x3 : FVec Ideal S26x128 .f32) (x4 : FVec Ideal S128 .f32) (x5 : FVec Ideal S128x128 .f32) (x6 : FVec Ideal S128 .f32)
    (n : Fin 100000) (k : Fin 139) :
    val_main_v32 (F := Ideal) x0 x1 x2 x3 x4 x5 x6 (ix2 n k)
      = cat2 (row x0 n) (row (val_main_v31 (F := Ideal) x0 x1 x2 x3 x4 x5 x6) n) k := by
  unfold val_main_v32
  exact cat2_read _ x0 (val_main_v31 (F := Ideal) x0 x1 x2 x3 x4 x5 x6) n k

/-- The first affine layer of the node function. -/
private theorem v36_eq (x0 : FVec Ideal S100000x11 .f32) (x1 : IVec S2x1600000 32) (x2 : FVec Ideal S1600000x4 .f32)
    (x3 : FVec Ideal S26x128 .f32) (x4 : FVec Ideal S128 .f32) (x5 : FVec Ideal S128x128 .f32) (x6 : FVec Ideal S128 .f32)
    (x7 : FVec Ideal S139x128 .f32) (x8 : FVec Ideal S128 .f32) (n : Fin 100000) (q : Fin 128) :
    val_main_v36 (F := Ideal) x0 x1 x2 x3 x4 x5 x6 x7 x8 (ix2 n q)
      = dense (cat2 (row x0 n) (row (val_main_v31 (F := Ideal) x0 x1 x2 x3 x4 x5 x6) n)) x7 (vec x8) q := by
  rw [val_main_v36_apply, val_main_v33_apply, bias_v35, Ideal.addf_def, dense_apply]
  refine congrArg (· + vec x8 q) (Finset.sum_congr rfl fun k _ => ?_)
  have hl : lidx_main_v33 (ix2 n q) k = ix2 n k :=
    funext fun a => Fin.ext (by match a with | ⟨0, _⟩ => rfl | ⟨1, _⟩ => rfl)
  have hr : ridx_main_v33 (ix2 n q) k = ix2 k q :=
    funext fun a => Fin.ext (by match a with | ⟨0, _⟩ => rfl | ⟨1, _⟩ => rfl)
  rw [hl, hr, v32_read]

/-- The rectified linear unit of the node function. -/
private theorem v37_eq (x0 : FVec Ideal S100000x11 .f32) (x1 : IVec S2x1600000 32) (x2 : FVec Ideal S1600000x4 .f32)
    (x3 : FVec Ideal S26x128 .f32) (x4 : FVec Ideal S128 .f32) (x5 : FVec Ideal S128x128 .f32) (x6 : FVec Ideal S128 .f32)
    (x7 : FVec Ideal S139x128 .f32) (x8 : FVec Ideal S128 .f32) (n : Fin 100000) (q : Fin 128) :
    val_main_v37 (F := Ideal) x0 x1 x2 x3 x4 x5 x6 x7 x8 (ix2 n q)
      = relu (dense (cat2 (row x0 n) (row (val_main_v31 (F := Ideal) x0 x1 x2 x3 x4 x5 x6) n)) x7 (vec x8)) q := by
  rw [val_main_v37_apply, zero_call2, v36_eq, Ideal.maximumf_def, relu_apply]

/-- The second affine layer of the node function. -/
private theorem v41_eq (x0 : FVec Ideal S100000x11 .f32) (x1 : IVec S2x1600000 32) (x2 : FVec Ideal S1600000x4 .f32)
    (x3 : FVec Ideal S26x128 .f32) (x4 : FVec Ideal S128 .f32) (x5 : FVec Ideal S128x128 .f32) (x6 : FVec Ideal S128 .f32)
    (x7 : FVec Ideal S139x128 .f32) (x8 : FVec Ideal S128 .f32) (x9 : FVec Ideal S128x128 .f32) (x10 : FVec Ideal S128 .f32)
    (n : Fin 100000) (q : Fin 128) :
    val_main_v41 (F := Ideal) x0 x1 x2 x3 x4 x5 x6 x7 x8 x9 x10 (ix2 n q)
      = dense (relu (dense (cat2 (row x0 n) (row (val_main_v31 (F := Ideal) x0 x1 x2 x3 x4 x5 x6) n)) x7 (vec x8)))
          x9 (vec x10) q := by
  rw [val_main_v41_apply, val_main_v38_apply, bias_v40, Ideal.addf_def, dense_apply]
  refine congrArg (· + vec x10 q) (Finset.sum_congr rfl fun k _ => ?_)
  have hl : lidx_main_v38 (ix2 n q) k = ix2 n k :=
    funext fun a => Fin.ext (by match a with | ⟨0, _⟩ => rfl | ⟨1, _⟩ => rfl)
  have hr : ridx_main_v38 (ix2 n q) k = ix2 k q :=
    funext fun a => Fin.ext (by match a with | ⟨0, _⟩ => rfl | ⟨1, _⟩ => rfl)
  rw [hl, hr, v37_eq]

/-- The reference's result is the node function of the node rows and the aggregated edge features, row by row. -/
theorem ref_node (x0 : FVec Ideal S100000x11 .f32) (x1 : IVec S2x1600000 32) (x2 : FVec Ideal S1600000x4 .f32)
    (x3 : FVec Ideal S26x128 .f32) (x4 : FVec Ideal S128 .f32) (x5 : FVec Ideal S128x128 .f32) (x6 : FVec Ideal S128 .f32)
    (x7 : FVec Ideal S139x128 .f32) (x8 : FVec Ideal S128 .f32) (x9 : FVec Ideal S128x128 .f32) (x10 : FVec Ideal S128 .f32)
    (x11 : FVec Ideal S128x4 .f32) (x12 : FVec Ideal S4 .f32) :
    val_main_v45 (F := Ideal) x0 x1 x2 x3 x4 x5 x6 x7 x8 x9 x10 x11 x12
      = nodeAll x0 (val_main_v31 (F := Ideal) x0 x1 x2 x3 x4 x5 x6) x7 (vec x8) x9 (vec x10) x11 (vec x12) := by
  funext i
  obtain ⟨n, q, rfl⟩ : ∃ (n : Fin 100000) (q : Fin 4), i = ix2 n q := ⟨i 0, i 1, eq_ix2 i⟩
  rw [nodeAll_apply, val_main_v45_apply, val_main_v42_apply, bias_v44, Ideal.addf_def]
  unfold nodeRow
  rw [dense_apply]
  refine congrArg (· + vec x12 q) (Finset.sum_congr rfl fun k _ => ?_)
  have hl : lidx_main_v42 (ix2 n q) k = ix2 n k :=
    funext fun a => Fin.ext (by match a with | ⟨0, _⟩ => rfl | ⟨1, _⟩ => rfl)
  have hr : ridx_main_v42 (ix2 n q) k = ix2 k q :=
    funext fun a => Fin.ext (by match a with | ⟨0, _⟩ => rfl | ⟨1, _⟩ => rfl)
  rw [hl, hr, v41_eq]

end Cert.ReferenceIdeal.RefValue

end
-- ==== Proof.Bridge.lean ====
/-
  The kernel program's result and the reference's are one function of the arguments, wherever every entry of the
  edge list is a row number of the node features.

  There the kernel's row lookup fills nothing, so it is the reference's plain gather at the same wrapped row
  numbers; the edge function and the node function are then applied to the same arrays on both sides, and the
  scatter-add between them to the same row numbers and the same edge features.  A bias vector staged as a one-row
  matrix reads, in its row, the vector.
-/
import proofs.«423183_j50654844289862_1_alg».proof.Proof.KernelVal
import proofs.«423183_j50654844289862_1_alg».proof.Proof.RefValue
import Idealize.ShloMosaic.Lib.Pipeline.Value
import Idealize.ShloMosaic.Lib.ValueLayout

noncomputable section

namespace Cert.Bridge

open Idealize.ShloMosaic Idealize.ShloMosaic.ValueIdx Cert.Spec
open Cert.KernelIdeal Cert.KernelIdeal.Gen Cert.KernelIdeal.Take

-- the whole-array gathers and scatters are compared by their arguments, never opened
attribute [local irreducible] Host.reduce Host.gather Host.scatterAdd

/-- The one row of a 128-vector staged as a one-row matrix is the vector. -/
theorem biasRow128_row (b : FVec Ideal S128 .f32) : row (biasRow128 b) 0 = vec b := by
  funext q
  show shapeCast S1x128 b shapeCasts_S128_S1x128 (ix2 (0 : Fin 1) q) = b (ix1 q)
  refine shapeCast_apply b shapeCasts_S128_S1x128 (ix2 (0 : Fin 1) q) (ix1 q) ?_
  rewrite [Shape.rowMajor_val_two, Shape.rowMajor_val_one]
  first
    | (show q.val = 0 * 128 + q.val; omega)
    | (show 0 * 128 + q.val = q.val; omega)

/-- The one row of a 4-vector staged as a one-row matrix is the vector. -/
theorem biasRow4_row (b : FVec Ideal S4 .f32) : row (biasRow4 b) 0 = vec b := by
  funext q
  show shapeCast S1x4 b shapeCasts_S4_S1x4 (ix2 (0 : Fin 1) q) = b (ix1 q)
  refine shapeCast_apply b shapeCasts_S4_S1x4 (ix2 (0 : Fin 1) q) (ix1 q) ?_
  rewrite [Shape.rowMajor_val_two, Shape.rowMajor_val_one]
  first
    | (show q.val = 0 * 4 + q.val; omega)
    | (show 0 * 4 + q.val = q.val; omega)

/-- With every entry of the edge list a row number in `[0, 100000)`, the kernel program's result is the reference's. -/
theorem kernelVal_eq_ref (a0 : FVec Ideal S100000x11 .f32) (a1 : IVec S2x1600000 32) (a2 : FVec Ideal S1600000x4 .f32)
    (a3 : FVec Ideal S26x128 .f32) (a4 : FVec Ideal S128 .f32) (a5 : FVec Ideal S128x128 .f32) (a6 : FVec Ideal S128 .f32)
    (a7 : FVec Ideal S139x128 .f32) (a8 : FVec Ideal S128 .f32) (a9 : FVec Ideal S128x128 .f32) (a10 : FVec Ideal S128 .f32)
    (a11 : FVec Ideal S128x4 .f32) (a12 : FVec Ideal S4 .f32)
    (h : ∀ (r : Fin 2) (e : Fin 1600000), 0 ≤ (a1 (ix2 r e)).toInt ∧ (a1 (ix2 r e)).toInt < 100000) :
    kernelVal a0 a1 a2 a3 a4 a5 a6 a7 a8 a9 a10 a11 a12
      = Cert.ReferenceIdeal.Read.val_main_v45 (F := Ideal) a0 a1 a2 a3 a4 a5 a6 a7 a8 a9 a10 a11 a12 := by
  have hrow : ∀ e : Fin 1600000, 0 ≤ (rowVec a1 (ix1 e)).toInt ∧ (rowVec a1 (ix1 e)).toInt < 100000 := fun e => by
    rw [show rowVec a1 (ix1 e) = a1 (ix2 (0 : Fin 2) e) from rowIdx_apply a1 e]; exact h 0 e
  have hcol : ∀ e : Fin 1600000, 0 ≤ (colVec a1 (ix1 e)).toInt ∧ (colVec a1 (ix1 e)).toInt < 100000 := fun e => by
    rw [show colVec a1 (ix1 e) = a1 (ix2 (1 : Fin 2) e) from colIdx_apply a1 e]; exact h 1 e
  rw [Cert.ReferenceIdeal.RefValue.ref_node]
  unfold kernelVal edgeVal
  rw [takeVal_eq_gather a0 (rowVec a1) hrow, takeVal_eq_gather a0 (colVec a1) hcol]
  rw [biasRow128_row a4, biasRow128_row a6, biasRow128_row a8, biasRow128_row a10, biasRow4_row a12]
  refine congrArg (fun G => nodeAll a0 G a7 (vec a8) a9 (vec a10) a11 (vec a12)) ?_
  unfold Cert.ReferenceIdeal.Read.val_main_v31
  rw [Cert.ReferenceIdeal.RefValue.ref_edge]
  rfl

end Cert.Bridge

end
-- ==== Proof.lean ====
/-
  The edge-and-node message-passing kernel against its whole-array reference, over the extended reals.

  Both programs compute, for every edge, two affine layers with a rectified linear unit after each on the
  concatenation of the source node's row, the destination node's row and the edge's attributes; sum the edges'
  features into their source nodes' rows; and apply, for every node, three affine layers (a rectified linear unit after
  the first) to the concatenation of the node's row and its summed edge features.  The kernel tiles the edges and the
  nodes by rows and multiplies through narrower float formats, which are the identity on the extended reals; each
  contraction is one sum over the whole contracted axis on both sides, so no law of arithmetic is needed, only each
  operation read at an index.  The two programs differ in one thing: the kernel's row lookup fills a row whose number
  is out of range, the reference's clamps the number.  The precondition keeps every entry of the edge list a row
  number of the node features, where neither happens.

  The three frames are the generated ones (the reference's is its run with the result dropped); the idealization
  rewrote nothing, so its claim is trivial.
-/
import proofs.«423183_j50654844289862_1_alg».proof.Defs
import proofs.«423183_j50654844289862_1_alg».proof.Proof.Gen.Kernel
import proofs.«423183_j50654844289862_1_alg».proof.Proof.Gen.Kernel.Skeleton
import proofs.«423183_j50654844289862_1_alg».proof.Proof.Gen.Kernel.Launch
import proofs.«423183_j50654844289862_1_alg».proof.Proof.Gen.Kernel.Points
import proofs.«423183_j50654844289862_1_alg».proof.Proof.Gen.Kernel.Frame
import proofs.«423183_j50654844289862_1_alg».proof.Proof.Gen.KernelIdeal
import proofs.«423183_j50654844289862_1_alg».proof.Proof.Gen.KernelIdeal.Skeleton
import proofs.«423183_j50654844289862_1_alg».proof.Proof.Gen.KernelIdeal.Launch
import proofs.«423183_j50654844289862_1_alg».proof.Proof.Gen.KernelIdeal.Points
import proofs.«423183_j50654844289862_1_alg».proof.Proof.Gen.KernelIdeal.Frame
import proofs.«423183_j50654844289862_1_alg».proof.Proof.Gen.ReferenceIdeal
import proofs.«423183_j50654844289862_1_alg».proof.Proof.Gen.Pre_finite_inputs
import proofs.«423183_j50654844289862_1_alg».proof.Proof.Gen.ReferenceIdeal.Run
import proofs.«423183_j50654844289862_1_alg».proof.Proof.Gen.ReferenceIdeal.Read
import proofs.«423183_j50654844289862_1_alg».proof.Proof.ResultVal
import proofs.«423183_j50654844289862_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the kernel function of the arguments in their
    result arrays: the kernel by its run read back, the reference because its composed term is that function wherever
    the edge list holds row numbers, which the precondition says. -/
theorem algebraic : Cert.algebraic_KernelIdeal_ReferenceIdeal := by
  intro m ρ m' ρ' hpre hagree
  refine ⟨_, Cert.KernelIdeal.Gen.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.ReferenceIdeal.Read.val_main_v45_eq, e0, e1, e2, e3, e4, e5, e6, e7, e8, e9, e10, e11, e12]
  exact (Cert.Bridge.kernelVal_eq_ref _ _ _ _ _ _ _ _ _ _ _ _ _
    (fun r e => Cert.KernelIdeal.Take.idx_range_of_pre _ _ _ _ _ _ _ _ _ _ _ _ _ (hpre c) r e)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
